-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2 : Shape := ⟨3, ![2, 2048, 2]⟩
abbrev S2x2048x2048 : Shape := ⟨3, ![2, 2048, 2048]⟩
abbrev S8x2048x4096 : Shape := ⟨3, ![8, 2048, 4096]⟩
abbrev S8x4096x2048 : Shape := ⟨3, ![8, 4096, 2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2x2048x2 : S_.BroadcastsInDim S2x2048x2 (![] : Fin 0 → Fin S2x2048x2.rank)
  reducesTo_S2x2048x2_S_d0_1_2 : S2x2048x2.ReducesTo [0, 1, 2] S_
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn_part1 {F : FTy → Type} [FloatOps F] (main_arg5 : FVec F S8x2048x4096 .f32) (main_v13 : IVec S_ 1) (main_v16 : IVec S8x4096x2048 1) : IVec S_ 1 :=
  let main_c_5 : IVec S_ 1 := constantI S_ 1 1#1
  let main_v17 : IVec S_ 1 := (fun x v => Host.reduce IntOp.andi x v reducesTo_S8x4096x2048_S_d0_1_2 h_S_) main_v16 main_c_5
  let main_v18 : IVec S_ 1 := andi main_v13 main_v17
  let main_v19 : FVec F S8x2048x4096 .f32 := Host.absf main_arg5
  let main_cst_6 : FVec F S_ .f32 := constant S_ .f32 0x7F800000#32
  let main_v20 : FVec F S8x2048x4096 .f32 := broadcastInDim S8x2048x4096 ![] bcast_S_S8x2048x4096 main_cst_6
  let main_v21 : IVec S8x2048x4096 1 := cmpf .olt main_v19 main_v20
  let main_c_7 : IVec S_ 1 := constantI S_ 1 1#1
  let main_v22 : IVec S_ 1 := (fun x v => Host.reduce IntOp.andi x v reducesTo_S8x2048x4096_S_d0_1_2 h_S_) main_v21 main_c_7
  let main_v23 : IVec S_ 1 := andi main_v18 main_v22
  main_v23

def fn {F : FTy → Type} [FloatOps F] (main_arg0 : IVec S2x2048x2 32) (main_arg1 : FVec F S2x2048x2048 .f32) (main_arg2 : FVec F S2x2048x2 .f32) (main_arg3 : FVec F S8x2048x4096 .f32) (main_arg4 : FVec F S8x4096x2048 .f32) (main_arg5 : FVec F S8x2048x4096 .f32) : IVec S_ 1 :=
  let main_v0 : FVec F S2x2048x2048 .f32 := Host.absf main_arg1
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2x2048x2 .f32 := Host.absf main_arg2
  let main_cst_0 : FVec F S_ .f32 := constant S_ .f32 0x7F800000#32
  let main_v5 : FVec F S2x2048x2 .f32 := broadcastInDim S2x2048x2 ![] bcast_S_S2x2048x2 main_cst_0
  let main_v6 : IVec S2x2048x2 1 := cmpf .olt main_v4 main_v5
  let main_c_1 : IVec S_ 1 := constantI S_ 1 1#1
  let main_v7 : IVec S_ 1 := (fun x v => Host.reduce IntOp.andi x v reducesTo_S2x2048x2_S_d0_1_2 h_S_) main_v6 main_c_1
  let main_v8 : IVec S_ 1 := andi main_v3 main_v7
  let main_v9 : FVec F S8x2048x4096 .f32 := Host.absf main_arg3
  let main_cst_2 : FVec F S_ .f32 := constant S_ .f32 0x7F800000#32
  let main_v10 : FVec F S8x2048x4096 .f32 := broadcastInDim S8x2048x4096 ![] bcast_S_S8x2048x4096 main_cst_2
  let main_v11 : IVec S8x2048x4096 1 := cmpf .olt main_v9 main_v10
  let main_c_3 : IVec S_ 1 := constantI S_ 1 1#1
  let main_v12 : IVec S_ 1 := (fun x v => Host.reduce IntOp.andi x v reducesTo_S8x2048x4096_S_d0_1_2 h_S_) main_v11 main_c_3
  let main_v13 : IVec S_ 1 := andi main_v8 main_v12
  let main_v14 : FVec F S8x4096x2048 .f32 := Host.absf main_arg4
  let main_cst_4 : FVec F S_ .f32 := constant S_ .f32 0x7F800000#32
  let main_v15 : FVec F S8x4096x2048 .f32 := broadcastInDim S8x4096x2048 ![] bcast_S_S8x4096x2048 main_cst_4
  let main_v16 : IVec S8x4096x2048 1 := cmpf .olt main_v14 main_v15
  fn_part1 (F := F) main_arg5 main_v13 main_v16
-- ==== Kernel.lean ====
abbrev S2x2048x2 : Shape := ⟨3, ![2, 2048, 2]⟩
abbrev S2x2048x2048 : Shape := ⟨3, ![2, 2048, 2048]⟩
abbrev S8x2048x4096 : Shape := ⟨3, ![8, 2048, 4096]⟩
abbrev S8x4096x2048 : Shape := ⟨3, ![8, 4096, 2048]⟩
abbrev S4096x2 : Shape := ⟨2, ![4096, 2]⟩
abbrev S8 : Shape := ⟨1, ![8]⟩
abbrev S1x4096x2 : Shape := ⟨3, ![1, 4096, 2]⟩
abbrev S8x1x1 : Shape := ⟨3, ![8, 1, 1]⟩
abbrev S8x4096x2 : Shape := ⟨3, ![8, 4096, 2]⟩
abbrev S_ : Shape := ⟨0, ![]⟩
abbrev S8x4096 : Shape := ⟨2, ![8, 4096]⟩
abbrev S8x4096x1 : Shape := ⟨3, ![8, 4096, 1]⟩
abbrev S4096x2048 : Shape := ⟨2, ![4096, 2048]⟩
abbrev S1x512x1 : Shape := ⟨3, ![1, 512, 1]⟩
abbrev S512x2048 : Shape := ⟨2, ![512, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x512 : Shape := ⟨2, ![512, 512]⟩
abbrev S512x1 : Shape := ⟨2, ![512, 1]⟩

abbrev nBuf : Space → Nat
  | .hbm => 27
  | .vmem => 12
  | .smem => 0
  | _ => 0

abbrev bufTy : (tb : Table) → Fin (tcTables nBuf tb) → BufTy
  | .hbm, ⟨0, _⟩ => ⟨S2x2048x2, .i32⟩
  | .hbm, ⟨1, _⟩ => ⟨S2x2048x2048, .f32⟩
  | .hbm, ⟨2, _⟩ => ⟨S2x2048x2, .f32⟩
  | .hbm, ⟨3, _⟩ => ⟨S8x2048x4096, .f32⟩
  | .hbm, ⟨4, _⟩ => ⟨S8x4096x2048, .f32⟩
  | .hbm, ⟨5, _⟩ => ⟨S8x2048x4096, .f32⟩
  | .hbm, ⟨6, _⟩ => ⟨S4096x2, .i32⟩
  | .hbm, ⟨7, _⟩ => ⟨S4096x2, .f32⟩
  | .hbm, ⟨8, _⟩ => ⟨S8, .i32⟩
  | .hbm, ⟨9, _⟩ => ⟨S1x4096x2, .i32⟩
  | .hbm, ⟨10, _⟩ => ⟨S8x1x1, .i32⟩
  | .hbm, ⟨11, _⟩ => ⟨S8x4096x2, .i32⟩
  | .hbm, ⟨12, _⟩ => ⟨S8x4096x2, .i32⟩
  | .hbm, ⟨13, _⟩ => ⟨S8x4096x2, .i1⟩
  | .hbm, ⟨14, _⟩ => ⟨S8x4096x2, .f32⟩
  | .hbm, ⟨15, _⟩ => ⟨S1x4096x2, .f32⟩
  | .hbm, ⟨16, _⟩ => ⟨S8x4096x2, .f32⟩
  | .hbm, ⟨17, _⟩ => ⟨S8x4096x2, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S4096x2048, .f32⟩
  | .hbm, ⟨22, _⟩ => ⟨S8x2048x4096, .bf16⟩
  | .hbm, ⟨23, _⟩ => ⟨S8x4096x2048, .bf16⟩
  | .hbm, ⟨24, _⟩ => ⟨S8x2048x4096, .bf16⟩
  | .hbm, ⟨25, _⟩ => ⟨S4096x2048, .f32⟩
  | .hbm, ⟨26, _⟩ => ⟨S2x2048x2048, .f32⟩
  | .local _ .vmem, ⟨0, _⟩ => ⟨S1x512x1, .f32⟩
  | .local _ .vmem, ⟨1, _⟩ => ⟨S1x512x1, .f32⟩
  | .local _ .vmem, ⟨2, _⟩ => ⟨S512x2048, .f32⟩
  | .local _ .vmem, ⟨3, _⟩ => ⟨S512x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S512x2048, .f32⟩
  | .local _ .vmem, ⟨11, _⟩ => ⟨S512x2048, .f32⟩
  | _, _ => ⟨S2x2048x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  shapeCasts_S2x2048x2_S4096x2 : S2x2048x2.ShapeCasts S4096x2
  bcast_S4096x2_S1x4096x2_1_2 : S4096x2.BroadcastsInDim S1x4096x2 (![1, 2] : Fin 2 → Fin S1x4096x2.rank)
  bcast_S8_S8x1x1_0 : S8.BroadcastsInDim S8x1x1 (![0] : Fin 1 → Fin S8x1x1.rank)
  bcast_S1x4096x2_S8x4096x2_0_1_2 : S1x4096x2.BroadcastsInDim S8x4096x2 (![0, 1, 2] : Fin 3 → Fin S8x4096x2.rank)
  bcast_S8x1x1_S8x4096x2_0_1_2 : S8x1x1.BroadcastsInDim S8x4096x2 (![0, 1, 2] : Fin 3 → Fin S8x4096x2.rank)
  reducesTo_S8x4096x2_S8x4096_d2 : S8x4096x2.ReducesTo [2] S8x4096
  h_S_ : 0 < S_.numel
  shapeCasts_S8x4096_S8x4096x1 : S8x4096.ShapeCasts S8x4096x1
  shapeCasts_S2x2048x2048_S4096x2048 : S2x2048x2048.ShapeCasts S4096x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  shapeCasts_S1x512x1_S512x1 : S1x512x1.ShapeCasts S512x1
  broadcasts_S512x1_S512x2048 : S512x1.Broadcasts S512x2048
  shapeCasts_S4096x2048_S2x2048x2048 : S4096x2048.ShapeCasts S2x2048x2048
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1.size a ≤ S8x4096x1.size a
  hwx0_0 : ∀ i : grid0.Coords, EltTy.bits .f32 = 32 ∨ (Rect.block (s := S8x4096x1) S1x512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x4096.size a
  hwx0_2 : ∀ i : grid0.Coords, EltTy.bits .bf16 = 32 ∨ (Rect.block (s := S8x2048x4096) S1x2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S8x2048x4096.size a
  hwx0_3 : ∀ i : grid0.Coords, EltTy.bits .bf16 = 32 ∨ (Rect.block (s := S8x2048x4096) S1x2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x4096x2048.size a
  hwx0_4 : ∀ i : grid0.Coords, EltTy.bits .bf16 = 32 ∨ (Rect.block (s := S8x4096x2048) S1x512x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S4096x2048.size a
  hwx0_5 : ∀ i : grid0.Coords, EltTy.bits .f32 = 32 ∨ (Rect.block (s := S4096x2048) S512x2048.size (cc0_transform_5 i) (hinb0_5 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v13) S1x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x2048x2 : Shape := ⟨3, ![2, 2048, 2]⟩
abbrev S2x2048x2048 : Shape := ⟨3, ![2, 2048, 2048]⟩
abbrev S8x2048x4096 : Shape := ⟨3, ![8, 2048, 4096]⟩
abbrev S8x4096x2048 : Shape := ⟨3, ![8, 4096, 2048]⟩
abbrev S_ : Shape := ⟨0, ![]⟩
abbrev S1x2048x4096 : Shape := ⟨3, ![1, 2048, 4096]⟩
abbrev S2048x4096 : Shape := ⟨2, ![2048, 4096]⟩
abbrev S2x2048x4096 : Shape := ⟨3, ![2, 2048, 4096]⟩
abbrev S1x4096x2048 : Shape := ⟨3, ![1, 4096, 2048]⟩
abbrev S4096x2048 : Shape := ⟨2, ![4096, 2048]⟩
abbrev S2x2048 : Shape := ⟨2, ![2, 2048]⟩
abbrev S2x2048x1 : Shape := ⟨3, ![2, 2048, 1]⟩

abbrev nBuf : Space → Nat
  | .hbm => 248
  | .vmem => 0
  | .smem => 0
  | _ => 0

abbrev hbmTy0_0 (i : Nat) : BufTy := match i % 128 with
  | 0 => ⟨S2x2048x2, .i32⟩
  | 1 => ⟨S2x2048x2048, .f32⟩
  | 2 => ⟨S2x2048x2, .f32⟩
  | 3 => ⟨S8x2048x4096, .f32⟩
  | 4 => ⟨S8x4096x2048, .f32⟩
  | 5 => ⟨S8x2048x4096, .f32⟩
  | 6 => ⟨S_, .f32⟩
  | 7 => ⟨S2x2048x2048, .f32⟩
  | 8 => ⟨S1x2048x4096, .f32⟩
  | 9 => ⟨S2048x4096, .f32⟩
  | 10 => ⟨S2x2048x4096, .f32⟩
  | 11 => ⟨S1x2048x4096, .f32⟩
  | 12 => ⟨S2048x4096, .f32⟩
  | 13 => ⟨S2x2048x4096, .f32⟩
  | 14 => ⟨S2x2048x4096, .f32⟩
  | 15 => ⟨S2x2048x4096, .f32⟩
  | 16 => ⟨S_, .f32⟩
  | 17 => ⟨S2x2048x4096, .f32⟩
  | 18 => ⟨S2x2048x4096, .f32⟩
  | 19 => ⟨S_, .f32⟩
  | 20 => ⟨S2x2048x4096, .f32⟩
  | 21 => ⟨S2x2048x4096, .f32⟩
  | 22 => ⟨S2x2048x4096, .f32⟩
  | 23 => ⟨S2x2048x4096, .f32⟩
  | 24 => ⟨S1x4096x2048, .f32⟩
  | 25 => ⟨S4096x2048, .f32⟩
  | 26 => ⟨S2x2048x2048, .f32⟩
  | 27 => ⟨S_, .i32⟩
  | 28 => ⟨S2x2048x2, .i32⟩
  | 29 => ⟨S2x2048x2, .i1⟩
  | 30 => ⟨S2x2048x2, .f32⟩
  | 31 => ⟨S2x2048x2, .f32⟩
  | 32 => ⟨S_, .f32⟩
  | 33 => ⟨S2x2048, .f32⟩
  | 34 => ⟨S2x2048x1, .f32⟩
  | 35 => ⟨S2x2048x2048, .f32⟩
  | 36 => ⟨S2x2048x2048, .f32⟩
  | 37 => ⟨S2x2048x2048, .f32⟩
  | 38 => ⟨S1x2048x4096, .f32⟩
  | 39 => ⟨S2048x4096, .f32⟩
  | 40 => ⟨S2x2048x4096, .f32⟩
  | 41 => ⟨S1x2048x4096, .f32⟩
  | 42 => ⟨S2048x4096, .f32⟩
  | 43 => ⟨S2x2048x4096, .f32⟩
  | 44 => ⟨S2x2048x4096, .f32⟩
  | 45 => ⟨S2x2048x4096, .f32⟩
  | 46 => ⟨S_, .f32⟩
  | 47 => ⟨S2x2048x4096, .f32⟩
  | 48 => ⟨S2x2048x4096, .f32⟩
  | 49 => ⟨S_, .f32⟩
  | 50 => ⟨S2x2048x4096, .f32⟩
  | 51 => ⟨S2x2048x4096, .f32⟩
  | 52 => ⟨S2x2048x4096, .f32⟩
  | 53 => ⟨S2x2048x4096, .f32⟩
  | 54 => ⟨S1x4096x2048, .f32⟩
  | 55 => ⟨S4096x2048, .f32⟩
  | 56 => ⟨S2x2048x2048, .f32⟩
  | 57 => ⟨S_, .i32⟩
  | 58 => ⟨S2x2048x2, .i32⟩
  | 59 => ⟨S2x2048x2, .i1⟩
  | 60 => ⟨S2x2048x2, .f32⟩
  | 61 => ⟨S2x2048x2, .f32⟩
  | 62 => ⟨S_, .f32⟩
  | 63 => ⟨S2x2048, .f32⟩
  | 64 => ⟨S2x2048x1, .f32⟩
  | 65 => ⟨S2x2048x2048, .f32⟩
  | 66 => ⟨S2x2048x2048, .f32⟩
  | 67 => ⟨S2x2048x2048, .f32⟩
  | 68 => ⟨S1x2048x4096, .f32⟩
  | 69 => ⟨S2048x4096, .f32⟩
  | 70 => ⟨S2x2048x4096, .f32⟩
  | 71 => ⟨S1x2048x4096, .f32⟩
  | 72 => ⟨S2048x4096, .f32⟩
  | 73 => ⟨S2x2048x4096, .f32⟩
  | 74 => ⟨S2x2048x4096, .f32⟩
  | 75 => ⟨S2x2048x4096, .f32⟩
  | 76 => ⟨S_, .f32⟩
  | 77 => ⟨S2x2048x4096, .f32⟩
  | 78 => ⟨S2x2048x4096, .f32⟩
  | 79 => ⟨S_, .f32⟩
  | 80 => ⟨S2x2048x4096, .f32⟩
  | 81 => ⟨S2x2048x4096, .f32⟩
  | 82 => ⟨S2x2048x4096, .f32⟩
  | 83 => ⟨S2x2048x4096, .f32⟩
  | 84 => ⟨S1x4096x2048, .f32⟩
  | 85 => ⟨S4096x2048, .f32⟩
  | 86 => ⟨S2x2048x2048, .f32⟩
  | 87 => ⟨S_, .i32⟩
  | 88 => ⟨S2x2048x2, .i32⟩
  | 89 => ⟨S2x2048x2, .i1⟩
  | 90 => ⟨S2x2048x2, .f32⟩
  | 91 => ⟨S2x2048x2, .f32⟩
  | 92 => ⟨S_, .f32⟩
  | 93 => ⟨S2x2048, .f32⟩
  | 94 => ⟨S2x2048x1, .f32⟩
  | 95 => ⟨S2x2048x2048, .f32⟩
  | 96 => ⟨S2x2048x2048, .f32⟩
  | 97 => ⟨S2x2048x2048, .f32⟩
  | 98 => ⟨S1x2048x4096, .f32⟩
  | 99 => ⟨S2048x4096, .f32⟩
  | 100 => ⟨S2x2048x4096, .f32⟩
  | 101 => ⟨S1x2048x4096, .f32⟩
  | 102 => ⟨S2048x4096, .f32⟩
  | 103 => ⟨S2x2048x4096, .f32⟩
  | 104 => ⟨S2x2048x4096, .f32⟩
  | 105 => ⟨S2x2048x4096, .f32⟩
  | 106 => ⟨S_, .f32⟩
  | 107 => ⟨S2x2048x4096, .f32⟩
  | 108 => ⟨S2x2048x4096, .f32⟩
  | 109 => ⟨S_, .f32⟩
  | 110 => ⟨S2x2048x4096, .f32⟩
  | 111 => ⟨S2x2048x4096, .f32⟩
  | 112 => ⟨S2x2048x4096, .f32⟩
  | 113 => ⟨S2x2048x4096, .f32⟩
  | 114 => ⟨S1x4096x2048, .f32⟩
  | 115 => ⟨S4096x2048, .f32⟩
  | 116 => ⟨S2x2048x2048, .f32⟩
  | 117 => ⟨S_, .i32⟩
  | 118 => ⟨S2x2048x2, .i32⟩
  | 119 => ⟨S2x2048x2, .i1⟩
  | 120 => ⟨S2x2048x2, .f32⟩
  | 121 => ⟨S2x2048x2, .f32⟩
  | 122 => ⟨S_, .f32⟩
  | 123 => ⟨S2x2048, .f32⟩
  | 124 => ⟨S2x2048x1, .f32⟩
  | 125 => ⟨S2x2048x2048, .f32⟩
  | 126 => ⟨S2x2048x2048, .f32⟩
  | 127 => ⟨S2x2048x2048, .f32⟩
  | _ => ⟨S2x2048x2, .i32⟩

abbrev hbmTy0_1 (i : Nat) : BufTy := match i % 128 with
  | 0 => ⟨S1x2048x4096, .f32⟩
  | 1 => ⟨S2048x4096, .f32⟩
  | 2 => ⟨S2x2048x4096, .f32⟩
  | 3 => ⟨S1x2048x4096, .f32⟩
  | 4 => ⟨S2048x4096, .f32⟩
  | 5 => ⟨S2x2048x4096, .f32⟩
  | 6 => ⟨S2x2048x4096, .f32⟩
  | 7 => ⟨S2x2048x4096, .f32⟩
  | 8 => ⟨S_, .f32⟩
  | 9 => ⟨S2x2048x4096, .f32⟩
  | 10 => ⟨S2x2048x4096, .f32⟩
  | 11 => ⟨S_, .f32⟩
  | 12 => ⟨S2x2048x4096, .f32⟩
  | 13 => ⟨S2x2048x4096, .f32⟩
  | 14 => ⟨S2x2048x4096, .f32⟩
  | 15 => ⟨S2x2048x4096, .f32⟩
  | 16 => ⟨S1x4096x2048, .f32⟩
  | 17 => ⟨S4096x2048, .f32⟩
  | 18 => ⟨S2x2048x2048, .f32⟩
  | 19 => ⟨S_, .i32⟩
  | 20 => ⟨S2x2048x2, .i32⟩
  | 21 => ⟨S2x2048x2, .i1⟩
  | 22 => ⟨S2x2048x2, .f32⟩
  | 23 => ⟨S2x2048x2, .f32⟩
  | 24 => ⟨S_, .f32⟩
  | 25 => ⟨S2x2048, .f32⟩
  | 26 => ⟨S2x2048x1, .f32⟩
  | 27 => ⟨S2x2048x2048, .f32⟩
  | 28 => ⟨S2x2048x2048, .f32⟩
  | 29 => ⟨S2x2048x2048, .f32⟩
  | 30 => ⟨S1x2048x4096, .f32⟩
  | 31 => ⟨S2048x4096, .f32⟩
  | 32 => ⟨S2x2048x4096, .f32⟩
  | 33 => ⟨S1x2048x4096, .f32⟩
  | 34 => ⟨S2048x4096, .f32⟩
  | 35 => ⟨S2x2048x4096, .f32⟩
  | 36 => ⟨S2x2048x4096, .f32⟩
  | 37 => ⟨S2x2048x4096, .f32⟩
  | 38 => ⟨S_, .f32⟩
  | 39 => ⟨S2x2048x4096, .f32⟩
  | 40 => ⟨S2x2048x4096, .f32⟩
  | 41 => ⟨S_, .f32⟩
  | 42 => ⟨S2x2048x4096, .f32⟩
  | 43 => ⟨S2x2048x4096, .f32⟩
  | 44 => ⟨S2x2048x4096, .f32⟩
  | 45 => ⟨S2x2048x4096, .f32⟩
  | 46 => ⟨S1x4096x2048, .f32⟩
  | 47 => ⟨S4096x2048, .f32⟩
  | 48 => ⟨S2x2048x2048, .f32⟩
  | 49 => ⟨S_, .i32⟩
  | 50 => ⟨S2x2048x2, .i32⟩
  | 51 => ⟨S2x2048x2, .i1⟩
  | 52 => ⟨S2x2048x2, .f32⟩
  | 53 => ⟨S2x2048x2, .f32⟩
  | 54 => ⟨S_, .f32⟩
  | 55 => ⟨S2x2048, .f32⟩
  | 56 => ⟨S2x2048x1, .f32⟩
  | 57 => ⟨S2x2048x2048, .f32⟩
  | 58 => ⟨S2x2048x2048, .f32⟩
  | 59 => ⟨S2x2048x2048, .f32⟩
  | 60 => ⟨S1x2048x4096, .f32⟩
  | 61 => ⟨S2048x4096, .f32⟩
  | 62 => ⟨S2x2048x4096, .f32⟩
  | 63 => ⟨S1x2048x4096, .f32⟩
  | 64 => ⟨S2048x4096, .f32⟩
  | 65 => ⟨S2x2048x4096, .f32⟩
  | 66 => ⟨S2x2048x4096, .f32⟩
  | 67 => ⟨S2x2048x4096, .f32⟩
  | 68 => ⟨S_, .f32⟩
  | 69 => ⟨S2x2048x4096, .f32⟩
  | 70 => ⟨S2x2048x4096, .f32⟩
  | 71 => ⟨S_, .f32⟩
  | 72 => ⟨S2x2048x4096, .f32⟩
  | 73 => ⟨S2x2048x4096, .f32⟩
  | 74 => ⟨S2x2048x4096, .f32⟩
  | 75 => ⟨S2x2048x4096, .f32⟩
  | 76 => ⟨S1x4096x2048, .f32⟩
  | 77 => ⟨S4096x2048, .f32⟩
  | 78 => ⟨S2x2048x2048, .f32⟩
  | 79 => ⟨S_, .i32⟩
  | 80 => ⟨S2x2048x2, .i32⟩
  | 81 => ⟨S2x2048x2, .i1⟩
  | 82 => ⟨S2x2048x2, .f32⟩
  | 83 => ⟨S2x2048x2, .f32⟩
  | 84 => ⟨S_, .f32⟩
  | 85 => ⟨S2x2048, .f32⟩
  | 86 => ⟨S2x2048x1, .f32⟩
  | 87 => ⟨S2x2048x2048, .f32⟩
  | 88 => ⟨S2x2048x2048, .f32⟩
  | 89 => ⟨S2x2048x2048, .f32⟩
  | 90 => ⟨S1x2048x4096, .f32⟩
  | 91 => ⟨S2048x4096, .f32⟩
  | 92 => ⟨S2x2048x4096, .f32⟩
  | 93 => ⟨S1x2048x4096, .f32⟩
  | 94 => ⟨S2048x4096, .f32⟩
  | 95 => ⟨S2x2048x4096, .f32⟩
  | 96 => ⟨S2x2048x4096, .f32⟩
  | 97 => ⟨S2x2048x4096, .f32⟩
  | 98 => ⟨S_, .f32⟩
  | 99 => ⟨S2x2048x4096, .f32⟩
  | 100 => ⟨S2x2048x4096, .f32⟩
  | 101 => ⟨S_, .f32⟩
  | 102 => ⟨S2x2048x4096, .f32⟩
  | 103 => ⟨S2x2048x4096, .f32⟩
  | 104 => ⟨S2x2048x4096, .f32⟩
  | 105 => ⟨S2x2048x4096, .f32⟩
  | 106 => ⟨S1x4096x2048, .f32⟩
  | 107 => ⟨S4096x2048, .f32⟩
  | 108 => ⟨S2x2048x2048, .f32⟩
  | 109 => ⟨S_, .i32⟩
  | 110 => ⟨S2x2048x2, .i32⟩
  | 111 => ⟨S2x2048x2, .i1⟩
  | 112 => ⟨S2x2048x2, .f32⟩
  | 113 => ⟨S2x2048x2, .f32⟩
  | 114 => ⟨S_, .f32⟩
  | 115 => ⟨S2x2048, .f32⟩
  | 116 => ⟨S2x2048x1, .f32⟩
  | 117 => ⟨S2x2048x2048, .f32⟩
  | 118 => ⟨S2x2048x2048, .f32⟩
  | 119 => ⟨S2x2048x2048, .f32⟩
  | _ => ⟨S2x2048x2, .i32⟩

abbrev hbmTy (i : Nat) : BufTy := match i / 128 with
  | 0 => hbmTy0_0 i
  | 1 => hbmTy0_1 i
  | _ => ⟨S2x2048x2, .i32⟩

abbrev bufTy : (tb : Table) → Fin (tcTables nBuf tb) → BufTy
  | .hbm, ⟨i, _⟩ => hbmTy i
  | _, _ => ⟨S2x2048x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_1 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_2 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_3 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_4 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call3_v0 : Ref sig .tc := ⟨.hbm, 104, rfl⟩
abbrev main_call3_v1 : Ref sig .tc := ⟨.hbm, 105, rfl⟩
abbrev main_call3_cst : Ref sig .tc := ⟨.hbm, 106, rfl⟩
abbrev main_call3_v2 : Ref sig .tc := ⟨.hbm, 107, rfl⟩
abbrev main_call3_v3 : Ref sig .tc := ⟨.hbm, 108, rfl⟩
abbrev main_call3_cst_0 : Ref sig .tc := ⟨.hbm, 109, rfl⟩
abbrev main_call3_v4 : Ref sig .tc := ⟨.hbm, 110, rfl⟩
abbrev main_call3_v5 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_c_5 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_6 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_call4_v0 : Ref sig .tc := ⟨.hbm, 134, rfl⟩
abbrev main_call4_v1 : Ref sig .tc := ⟨.hbm, 135, rfl⟩
abbrev main_call4_cst : Ref sig .tc := ⟨.hbm, 136, rfl⟩
abbrev main_call4_v2 : Ref sig .tc := ⟨.hbm, 137, rfl⟩
abbrev main_call4_v3 : Ref sig .tc := ⟨.hbm, 138, rfl⟩
abbrev main_call4_cst_0 : Ref sig .tc := ⟨.hbm, 139, rfl⟩
abbrev main_call4_v4 : Ref sig .tc := ⟨.hbm, 140, rfl⟩
abbrev main_call4_v5 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_c_7 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_cst_8 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_call5_v0 : Ref sig .tc := ⟨.hbm, 164, rfl⟩
abbrev main_call5_v1 : Ref sig .tc := ⟨.hbm, 165, rfl⟩
abbrev main_call5_cst : Ref sig .tc := ⟨.hbm, 166, rfl⟩
abbrev main_call5_v2 : Ref sig .tc := ⟨.hbm, 167, rfl⟩
abbrev main_call5_v3 : Ref sig .tc := ⟨.hbm, 168, rfl⟩
abbrev main_call5_cst_0 : Ref sig .tc := ⟨.hbm, 169, rfl⟩
abbrev main_call5_v4 : Ref sig .tc := ⟨.hbm, 170, rfl⟩
abbrev main_call5_v5 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_c_9 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_cst_10 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_call6_v0 : Ref sig .tc := ⟨.hbm, 194, rfl⟩
abbrev main_call6_v1 : Ref sig .tc := ⟨.hbm, 195, rfl⟩
abbrev main_call6_cst : Ref sig .tc := ⟨.hbm, 196, rfl⟩
abbrev main_call6_v2 : Ref sig .tc := ⟨.hbm, 197, rfl⟩
abbrev main_call6_v3 : Ref sig .tc := ⟨.hbm, 198, rfl⟩
abbrev main_call6_cst_0 : Ref sig .tc := ⟨.hbm, 199, rfl⟩
abbrev main_call6_v4 : Ref sig .tc := ⟨.hbm, 200, rfl⟩
abbrev main_call6_v5 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_c_11 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_cst_12 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_call7_v0 : Ref sig .tc := ⟨.hbm, 224, rfl⟩
abbrev main_call7_v1 : Ref sig .tc := ⟨.hbm, 225, rfl⟩
abbrev main_call7_cst : Ref sig .tc := ⟨.hbm, 226, rfl⟩
abbrev main_call7_v2 : Ref sig .tc := ⟨.hbm, 227, rfl⟩
abbrev main_call7_v3 : Ref sig .tc := ⟨.hbm, 228, rfl⟩
abbrev main_call7_cst_0 : Ref sig .tc := ⟨.hbm, 229, rfl⟩
abbrev main_call7_v4 : Ref sig .tc := ⟨.hbm, 230, rfl⟩
abbrev main_call7_v5 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_c_13 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_cst_14 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩

abbrev nD : Nat := 1
abbrev τ : Topo := Topo.v7x

variable {F : FTy → Type} [FloatOps F]

class Facts₀ : Prop where
  bcast_S_S2x2048x2048 : S_.BroadcastsInDim S2x2048x2048 (![] : Fin 0 → Fin S2x2048x2048.rank)
  slices_S8x2048x4096_S1x2048x4096_0_0_0 : S8x2048x4096.Slices ![0, 0, 0] S1x2048x4096
  shapeCasts_S1x2048x4096_S2048x4096 : S1x2048x4096.ShapeCasts S2048x4096
  bcast_S_S2x2048x4096 : S_.BroadcastsInDim S2x2048x4096 (![] : Fin 0 → Fin S2x2048x4096.rank)
  slices_S8x4096x2048_S1x4096x2048_0_0_0 : S8x4096x2048.Slices ![0, 0, 0] S1x4096x2048
  shapeCasts_S1x4096x2048_S4096x2048 : S1x4096x2048.ShapeCasts S4096x2048
  bcast_S_S2x2048x2 : S_.BroadcastsInDim S2x2048x2 (![] : Fin 0 → Fin S2x2048x2.rank)
  reducesTo_S2x2048x2_S2x2048_d2 : S2x2048x2.ReducesTo [2] S2x2048
  h_S_ : 0 < S_.numel
  bcast_S2x2048_S2x2048x1_0_1 : S2x2048.BroadcastsInDim S2x2048x1 (![0, 1] : Fin 2 → Fin S2x2048x1.rank)
  bcast_S2x2048x1_S2x2048x2048_0_1_2 : S2x2048x1.BroadcastsInDim S2x2048x2048 (![0, 1, 2] : Fin 3 → Fin S2x2048x2048.rank)
  slices_S8x2048x4096_S1x2048x4096_1_0_0 : S8x2048x4096.Slices ![1, 0, 0] S1x2048x4096
  slices_S8x4096x2048_S1x4096x2048_1_0_0 : S8x4096x2048.Slices ![1, 0, 0] S1x4096x2048
  slices_S8x2048x4096_S1x2048x4096_2_0_0 : S8x2048x4096.Slices ![2, 0, 0] S1x2048x4096
  slices_S8x4096x2048_S1x4096x2048_2_0_0 : S8x4096x2048.Slices ![2, 0, 0] S1x4096x2048
  slices_S8x2048x4096_S1x2048x4096_3_0_0 : S8x2048x4096.Slices ![3, 0, 0] S1x2048x4096
  slices_S8x4096x2048_S1x4096x2048_3_0_0 : S8x4096x2048.Slices ![3, 0, 0] S1x4096x2048
  slices_S8x2048x4096_S1x2048x4096_4_0_0 : S8x2048x4096.Slices ![4, 0, 0] S1x2048x4096
  slices_S8x4096x2048_S1x4096x2048_4_0_0 : S8x4096x2048.Slices ![4, 0, 0] S1x4096x2048
  slices_S8x2048x4096_S1x2048x4096_5_0_0 : S8x2048x4096.Slices ![5, 0, 0] S1x2048x4096
  slices_S8x4096x2048_S1x4096x2048_5_0_0 : S8x4096x2048.Slices ![5, 0, 0] S1x4096x2048
  slices_S8x2048x4096_S1x2048x4096_6_0_0 : S8x2048x4096.Slices ![6, 0, 0] S1x2048x4096
  slices_S8x4096x2048_S1x4096x2048_6_0_0 : S8x4096x2048.Slices ![6, 0, 0] S1x4096x2048
  slices_S8x2048x4096_S1x2048x4096_7_0_0 : S8x2048x4096.Slices ![7, 0, 0] S1x2048x4096
  slices_S8x4096x2048_S1x4096x2048_7_0_0 : S8x4096x2048.Slices ![7, 0, 0] S1x4096x2048
  dot_S2x2048x2048_S2048x4096_S2x2048x4096_2_0_01_1_n_n_wf : DotDims.WF S2x2048x2048 S2048x4096 S2x2048x4096 [2] [0] [0, 1] [1] [] []
  dot_S2x2048x4096_S4096x2048_S2x2048x2048_2_0_01_1_n_n_wf : DotDims.WF S2x2048x4096 S4096x2048 S2x2048x2048 [2] [0] [0, 1] [1] [] []

variable [Facts₀]

def dot_S2x2048x2048_S2048x4096_S2x2048x4096_2_0_01_1_n_n : DotDims S2x2048x2048 S2048x4096 S2x2048x4096 where
  lhsContracting := [2]
  rhsContracting := [0]
  lhsNonContracting := [0, 1]
  rhsNonContracting := [1]
  lhsBatch := []
  rhsBatch := []
  wf := dot_S2x2048x2048_S2048x4096_S2x2048x4096_2_0_01_1_n_n_wf
def dot_S2x2048x4096_S4096x2048_S2x2048x2048_2_0_01_1_n_n : DotDims S2x2048x4096 S4096x2048 S2x2048x2048 where
  lhsContracting := [2]
  rhsContracting := [0]
  lhsNonContracting := [0, 1]
  rhsNonContracting := [1]
  lhsBatch := []
  rhsBatch := []
  wf := dot_S2x2048x4096_S4096x2048_S2x2048x2048_2_0_01_1_n_n_wf

class Facts : Prop extends Facts₀ where

variable [Facts]
-- ==== Proof.MoeSpec.lean ====
/-
  The specification of the mixture-of-experts block, over the extended reals, with every array given as a function of
  explicit coordinates. Token rows are flat: row n of 4096 is (batch n / 2048, position n % 2048).

  For expert e (its id as a 32-bit word), token row n, output column q:
    gate e n       = Σ_{k<2} [sel n k = e] · rw n k               (the combine weight; [·] is 0 or 1)
    proj w e n j   = Σ_{d<2048} x n d · w e d j                    (a projection into the 4096 intermediate columns)
    act e n j      = (proj w1 e n j · logistic (proj w1 e n j)) · proj w3 e n j     (SiLU-gated product)
    expertOut e n q = Σ_{j<4096} act e n j · w2 e j q
    G n q          = Σ_{e<8} gate e n · expertOut e n q            (what the dense loop over experts computes)

  The tiled form accumulates, for r = 0 … 63 in order (expert r / 8, intermediate chunk r % 8 of 512 columns),
    step r n q = gate (r/8) n · Σ_{k<512} act (r/8) n (512·(r%8) + k) · w2 (r/8) (512·(r%8) + k) q
  and KG n q = Σ_{r<64} step r n q. The two agree when the weight and every chunk sum are real numbers: then the weight
  distributes over the eight chunk sums of an expert, and the chunks regroup to the full sum over 4096.
-/
import Idealize.ShloMosaic.PureOps.Ideal
import Idealize.ShloMosaic.Lib.ValueIdx

noncomputable section

namespace Moe

open Idealize.ShloMosaic

/-- Flat token row of (batch, position). -/
def rowOf (b : Fin 2) (s : Fin 2048) : Fin 4096 := ⟨2048 * b.val + s.val, by have := b.isLt; have := s.isLt; omega⟩
/-- Batch of a flat token row. -/
def rowB (n : Fin 4096) : Fin 2 := ⟨n.val / 2048, by have := n.isLt; omega⟩
/-- Position of a flat token row. -/
def rowS (n : Fin 4096) : Fin 2048 := ⟨n.val % 2048, Nat.mod_lt _ (by norm_num)⟩

theorem rowB_rowOf (b : Fin 2) (s : Fin 2048) : rowB (rowOf b s) = b := by
  apply Fin.ext; show (2048 * b.val + s.val) / 2048 = b.val; have := s.isLt; omega
theorem rowS_rowOf (b : Fin 2) (s : Fin 2048) : rowS (rowOf b s) = s := by
  apply Fin.ext; show (2048 * b.val + s.val) % 2048 = s.val; have := s.isLt; omega
theorem rowOf_rowB_rowS (n : Fin 4096) : rowOf (rowB n) (rowS n) = n := by
  apply Fin.ext; show 2048 * (n.val / 2048) + n.val % 2048 = n.val; omega

/-- Column 512·f + k of the 4096 intermediate columns: column k of chunk f. -/
def chunkIdx (f : Fin 8) (k : Fin 512) : Fin 4096 := ⟨512 * f.val + k.val, by have := f.isLt; have := k.isLt; omega⟩

/-- The 0/1 indicator that two 32-bit words are equal, as an extended real. -/
def ind (a e : BitVec 32) : EReal := (((Scalar.cmpi .eq a e).toNat : ℝ) : EReal)

section
variable (sel : Fin 4096 → Fin 2 → BitVec 32) (x : Fin 4096 → Fin 2048 → EReal) (rw : Fin 4096 → Fin 2 → EReal)
  (w1 : Fin 8 → Fin 2048 → Fin 4096 → EReal) (w2 : Fin 8 → Fin 4096 → Fin 2048 → EReal)
  (w3 : Fin 8 → Fin 2048 → Fin 4096 → EReal)

/-- The combine weight of the expert whose id is the word `e`, at token row n. -/
def gate (e : BitVec 32) (n : Fin 4096) : EReal := ∑ k : Fin 2, ind (sel n k) e * rw n k

/-- Token row n projected by expert e's matrix `w` into intermediate column j. -/
def proj (w : Fin 8 → Fin 2048 → Fin 4096 → EReal) (e : Fin 8) (n : Fin 4096) (j : Fin 4096) : EReal :=
  ∑ d : Fin 2048, x n d * w e d j

/-- The SiLU-gated product at intermediate column j. -/
def act (e : Fin 8) (n : Fin 4096) (j : Fin 4096) : EReal :=
  (proj x w1 e n j * Ideal.logistic (proj x w1 e n j)) * proj x w3 e n j

/-- Expert e's output at token row n, column q. -/
def expertOut (e : Fin 8) (n : Fin 4096) (q : Fin 2048) : EReal := ∑ j : Fin 4096, act x w1 w3 e n j * w2 e j q

/-- The dense form: the weighted sum of the eight experts' outputs. -/
def G (n : Fin 4096) (q : Fin 2048) : EReal :=
  ∑ e : Fin 8, gate sel rw (BitVec.ofNat 32 e.val) n * expertOut x w1 w2 w3 e n q

/-- Expert e's output restricted to intermediate chunk f. -/
def chunk (e : Fin 8) (f : Fin 8) (n : Fin 4096) (q : Fin 2048) : EReal :=
  ∑ k : Fin 512, act x w1 w3 e n (chunkIdx f k) * w2 e (chunkIdx f k) q

/-- Expert and chunk of accumulation step r. -/
def stepE (r : ℕ) : Fin 8 := ⟨(r / 8) % 8, Nat.mod_lt _ (by norm_num)⟩
def stepF (r : ℕ) : Fin 8 := ⟨r % 8, Nat.mod_lt _ (by norm_num)⟩

/-- What accumulation step r adds at (n, q). -/
def step (r : ℕ) (n : Fin 4096) (q : Fin 2048) : EReal :=
  gate sel rw (BitVec.ofNat 32 (stepE r).val) n * chunk x w1 w2 w3 (stepE r) (stepF r) n q

/-- The tiled form: the 64 steps summed. -/
def KG (n : Fin 4096) (q : Fin 2048) : EReal := ∑ r ∈ Finset.range 64, step sel x rw w1 w2 w3 r n q

end

/-! ## The argument arrays as coordinate functions -/

open Idealize.ShloMosaic.ValueIdx in
/-- A [2, 2048, C] array read at flat token row n and column k. -/
def rows {α : Type} {C : Nat} (a : (⟨3, ![2, 2048, C]⟩ : Shape).Idx → α) : Fin 4096 → Fin C → α :=
  fun n k => a (ValueIdx.ix3 (rowB n) (rowS n) k)

open Idealize.ShloMosaic.ValueIdx in
/-- A rank-3 array read at its three coordinates. -/
def cube {α : Type} {A B C : Nat} (a : (⟨3, ![A, B, C]⟩ : Shape).Idx → α) : Fin A → Fin B → Fin C → α :=
  fun e d j => a (ValueIdx.ix3 e d j)

/-- The block's result as a [2, 2048, 2048] array of the six argument arrays (expert selections, hidden states, routing
    weights, and the three weight stacks): the dense form `G` at (batch, position) ↦ flat row. -/
def result (a0 : (⟨3, ![2, 2048, 2]⟩ : Shape).Idx → BitVec 32) (a1 : (⟨3, ![2, 2048, 2048]⟩ : Shape).Idx → EReal)
    (a2 : (⟨3, ![2, 2048, 2]⟩ : Shape).Idx → EReal) (a3 : (⟨3, ![8, 2048, 4096]⟩ : Shape).Idx → EReal)
    (a4 : (⟨3, ![8, 4096, 2048]⟩ : Shape).Idx → EReal) (a5 : (⟨3, ![8, 2048, 4096]⟩ : Shape).Idx → EReal) :
    (⟨3, ![2, 2048, 2048]⟩ : Shape).Idx → EReal :=
  fun i => G (rows a0) (rows a1) (rows a2) (cube a3) (cube a4) (cube a5) (rowOf (i 0) (i 1)) (i 2)

/-- The same in the tiled accumulation order. -/
def resultTiled (a0 : (⟨3, ![2, 2048, 2]⟩ : Shape).Idx → BitVec 32) (a1 : (⟨3, ![2, 2048, 2048]⟩ : Shape).Idx → EReal)
    (a2 : (⟨3, ![2, 2048, 2]⟩ : Shape).Idx → EReal) (a3 : (⟨3, ![8, 2048, 4096]⟩ : Shape).Idx → EReal)
    (a4 : (⟨3, ![8, 4096, 2048]⟩ : Shape).Idx → EReal) (a5 : (⟨3, ![8, 2048, 4096]⟩ : Shape).Idx → EReal) :
    (⟨3, ![2, 2048, 2048]⟩ : Shape).Idx → EReal :=
  fun i => KG (rows a0) (rows a1) (rows a2) (cube a3) (cube a4) (cube a5) (rowOf (i 0) (i 1)) (i 2)

/-- Every entry of an array is a real number. -/
def AllReal {ι : Type} (a : ι → EReal) : Prop := ∀ i, ∃ r : ℝ, a i = (r : EReal)

end Moe

end
-- ==== Proof.MoeLaw.lean ====
/-
  The tiled accumulation of the mixture-of-experts block equals its dense form.

  On the extended reals c · (a + b) = c · a + c · b can fail at the infinities, so the combine weight is moved out of
  the eight chunk sums of an expert only after showing that the weight and every chunk sum are real numbers.
  "Is a real number" is closed under +, ·, finite sums and the logistic function; the 0/1 indicator is a real by
  definition. The regrouping of 8 chunks of 512 columns into 4096 columns, and of 64 steps into 8 × 8, holds in any
  commutative monoid.
-/
import proofs.«138791_j17446157156565_1_alg».proof.Proof.MoeSpec
import Mathlib.Data.EReal.Basic
import Mathlib.Algebra.BigOperators.Fin
import Mathlib.Algebra.BigOperators.Ring.Finset
import Mathlib.Data.Fintype.BigOperators
import Mathlib.Logic.Equiv.Fin.Basic

noncomputable section

namespace Moe

open Idealize.ShloMosaic

/-! ## Extended reals that are real numbers -/

/-- The extended real `a` is (the coercion of) a real number. -/
def IsReal (a : EReal) : Prop := ∃ r : ℝ, a = (r : EReal)

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.zero : IsReal 0 := ⟨0, EReal.coe_zero.symm⟩

/-- A finite sum of real numbers is a real number. -/
theorem IsReal.sum {ι : Type} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The logistic function takes real numbers to real numbers. -/
theorem IsReal.logistic {a : EReal} (ha : IsReal a) : IsReal (Ideal.logistic a) := by
  obtain ⟨r, rfl⟩ := ha
  exact ⟨_, Ideal.logistic_coe r⟩

/-- A real factor distributes over a sum of two reals. -/
theorem IsReal.mul_add {c a b : EReal} (hc : IsReal c) (ha : IsReal a) (hb : IsReal b) :
    c * (a + b) = c * a + c * b := by
  obtain ⟨t, rfl⟩ := hc
  obtain ⟨r, rfl⟩ := ha
  obtain ⟨s, rfl⟩ := hb
  rw [← EReal.coe_add, ← EReal.coe_mul, ← EReal.coe_mul, ← EReal.coe_mul, ← EReal.coe_add, _root_.mul_add]

/-- A real factor distributes over a finite sum of reals. -/
theorem IsReal.mul_sum {ι : Type} {c : EReal} (hc : IsReal c) (s : Finset ι) (f : ι → EReal)
    (h : ∀ i ∈ s, IsReal (f i)) : c * ∑ i ∈ s, f i = ∑ i ∈ s, c * f i := by
  classical
  induction s using Finset.induction_on with
  | empty => simp
  | insert a s ha ih =>
    have hs : ∀ i ∈ s, IsReal (f i) := fun i hi => h i (Finset.mem_insert_of_mem hi)
    rw [Finset.sum_insert ha, Finset.sum_insert ha,
      IsReal.mul_add hc (h a (Finset.mem_insert_self a s)) (IsReal.sum s f hs), ih hs]

/-! ## Regrouping sums -/

/-- A sum over `a · b` consecutive naturals as `a` blocks of `b`. -/
theorem sum_range_mul_eq {M : Type} [AddCommMonoid M] (a b : ℕ) (F : ℕ → M) :
    ∑ r ∈ Finset.range (a * b), F r = ∑ e : Fin a, ∑ f : Fin b, F (b * e.val + f.val) := by
  rw [Finset.sum_range, ← finProdFinEquiv.sum_comp, Fintype.sum_prod_type]
  refine Finset.sum_congr rfl fun e _ => Finset.sum_congr rfl fun f _ => ?_
  rw [finProdFinEquiv_apply_val, Nat.add_comm]

/-- A sum over `Fin (a · b)` as `a` blocks of `b`, the second coordinate the fast one. -/
theorem sum_fin_mul_eq {M : Type} [AddCommMonoid M] (a b : ℕ) (t : Fin (a * b) → M) :
    ∑ j : Fin (a * b), t j = ∑ f : Fin a, ∑ k : Fin b, t (finProdFinEquiv (f, k)) := by
  rw [← finProdFinEquiv.sum_comp, Fintype.sum_prod_type]

/-- Step `8·e + f` belongs to expert `e`. -/
theorem stepE_mul_add (e f : Fin 8) : stepE (8 * e.val + f.val) = e := by
  apply Fin.ext
  show (8 * e.val + f.val) / 8 % 8 = e.val
  have := e.isLt
  have := f.isLt
  omega

/-- Step `8·e + f` is chunk `f`. -/
theorem stepF_mul_add (e f : Fin 8) : stepF (8 * e.val + f.val) = f := by
  apply Fin.ext
  show (8 * e.val + f.val) % 8 = f.val
  have := f.isLt
  omega

/-- Eight chunks of 512 columns make up the 4096 columns. -/
theorem sum_chunks {M : Type} [AddCommMonoid M] (t : Fin 4096 → M) :
    ∑ f : Fin 8, ∑ k : Fin 512, t (chunkIdx f k) = ∑ j : Fin 4096, t j := by
  refine Eq.trans ?_ (sum_fin_mul_eq 8 512 t).symm
  refine Finset.sum_congr rfl fun f _ => Finset.sum_congr rfl fun k _ => ?_
  congr 1
  apply Fin.ext
  show 512 * f.val + k.val = k.val + 512 * f.val
  omega

/-! ## The terms of the block are real numbers -/

section
variable (sel : Fin 4096 → Fin 2 → BitVec 32) (x : Fin 4096 → Fin 2048 → EReal) (rw : Fin 4096 → Fin 2 → EReal)
  (w1 : Fin 8 → Fin 2048 → Fin 4096 → EReal) (w2 : Fin 8 → Fin 4096 → Fin 2048 → EReal)
  (w3 : Fin 8 → Fin 2048 → Fin 4096 → EReal)

theorem isReal_ind (a e : BitVec 32) : IsReal (ind a e) := ⟨_, rfl⟩

theorem isReal_gate (hrw : ∀ n k, IsReal (rw n k)) (e : BitVec 32) (n : Fin 4096) : IsReal (gate sel rw e n) :=
  IsReal.sum _ _ fun k _ => (isReal_ind (sel n k) e).mul (hrw n k)

theorem isReal_proj (hx : ∀ n d, IsReal (x n d)) (w : Fin 8 → Fin 2048 → Fin 4096 → EReal)
    (hw : ∀ e d j, IsReal (w e d j)) (e : Fin 8) (n : Fin 4096) (j : Fin 4096) : IsReal (proj x w e n j) :=
  IsReal.sum _ _ fun d _ => (hx n d).mul (hw e d j)

theorem isReal_act (hx : ∀ n d, IsReal (x n d)) (hw1 : ∀ e d j, IsReal (w1 e d j))
    (hw3 : ∀ e d j, IsReal (w3 e d j)) (e : Fin 8) (n : Fin 4096) (j : Fin 4096) : IsReal (act x w1 w3 e n j) :=
  ((isReal_proj x hx w1 hw1 e n j).mul (isReal_proj x hx w1 hw1 e n j).logistic).mul (isReal_proj x hx w3 hw3 e n j)

theorem isReal_chunk (hx : ∀ n d, IsReal (x n d)) (hw1 : ∀ e d j, IsReal (w1 e d j))
    (hw2 : ∀ e j q, IsReal (w2 e j q)) (hw3 : ∀ e d j, IsReal (w3 e d j)) (e f : Fin 8) (n : Fin 4096)
    (q : Fin 2048) : IsReal (chunk x w1 w2 w3 e f n q) :=
  IsReal.sum _ _ fun k _ => (isReal_act x w1 w3 hx hw1 hw3 e n (chunkIdx f k)).mul (hw2 e (chunkIdx f k) q)

/-- An expert's eight chunks add up to its output. -/
theorem sum_chunk_eq_expertOut (e : Fin 8) (n : Fin 4096) (q : Fin 2048) :
    ∑ f : Fin 8, chunk x w1 w2 w3 e f n q = expertOut x w1 w2 w3 e n q :=
  sum_chunks fun j => act x w1 w3 e n j * w2 e j q

end

/-! ## The two forms agree -/

theorem KG_eq_G (sel : Fin 4096 → Fin 2 → BitVec 32) (x : Fin 4096 → Fin 2048 → EReal) (rw : Fin 4096 → Fin 2 → EReal)
    (w1 : Fin 8 → Fin 2048 → Fin 4096 → EReal) (w2 : Fin 8 → Fin 4096 → Fin 2048 → EReal) (w3 : Fin 8 → Fin 2048 → Fin 4096 → EReal)
    (hx : ∀ n d, ∃ r : ℝ, x n d = (r : EReal)) (hrw : ∀ n k, ∃ r : ℝ, rw n k = (r : EReal))
    (hw1 : ∀ e d j, ∃ r : ℝ, w1 e d j = (r : EReal)) (hw2 : ∀ e j q, ∃ r : ℝ, w2 e j q = (r : EReal))
    (hw3 : ∀ e d j, ∃ r : ℝ, w3 e d j = (r : EReal)) (n : Fin 4096) (q : Fin 2048) :
    KG sel x rw w1 w2 w3 n q = G sel x rw w1 w2 w3 n q := by
  unfold KG G
  -- the 64 steps as 8 experts × 8 chunks
  refine (sum_range_mul_eq 8 8 fun r => step sel x rw w1 w2 w3 r n q).trans ?_
  refine Finset.sum_congr rfl fun e _ => ?_
  simp only [step, stepE_mul_add, stepF_mul_add]
  -- the weight, a real, moves out of the sum of the eight real chunk sums
  rw [← IsReal.mul_sum (isReal_gate sel rw hrw _ n) Finset.univ
    (fun f => chunk x w1 w2 w3 e f n q) (fun f _ => isReal_chunk x w1 w2 w3 hx hw1 hw2 hw3 e f n q),
    sum_chunk_eq_expertOut]

theorem resultTiled_eq_result (a0 : (⟨3, ![2, 2048, 2]⟩ : Shape).Idx → BitVec 32) (a1 : (⟨3, ![2, 2048, 2048]⟩ : Shape).Idx → EReal)
    (a2 : (⟨3, ![2, 2048, 2]⟩ : Shape).Idx → EReal) (a3 : (⟨3, ![8, 2048, 4096]⟩ : Shape).Idx → EReal)
    (a4 : (⟨3, ![8, 4096, 2048]⟩ : Shape).Idx → EReal) (a5 : (⟨3, ![8, 2048, 4096]⟩ : Shape).Idx → EReal)
    (h1 : AllReal a1) (h2 : AllReal a2) (h3 : AllReal a3) (h4 : AllReal a4) (h5 : AllReal a5) :
    resultTiled a0 a1 a2 a3 a4 a5 = result a0 a1 a2 a3 a4 a5 := by
  funext i
  exact KG_eq_G (rows a0) (rows a1) (rows a2) (cube a3) (cube a4) (cube a5) (fun _ _ => h1 _) (fun _ _ => h2 _)
    (fun _ _ _ => h3 _) (fun _ _ _ => h4 _) (fun _ _ _ => h5 _) (rowOf (i 0) (i 1)) (i 2)

end Moe

end
-- ==== Proof.FiniteArgs.lean ====
/-
  Finiteness of the float argument arrays, read out of the precondition.

  The precondition is the conjunction, over the five float arguments a, of  all (|a| < +∞),  given as a reduction by
  `and` of the entrywise comparison of |a| against the f32 pattern of +∞. The conjunction being 1 gives each reduction
  being 1; a reduction by `and` over every axis being 1 gives the comparison being 1 at every index; and for an extended
  real y, max y (-y) < ⊤ rules out y = ⊤ and y = ⊥, so y is a real number.
-/
import proofs.«138791_j17446157156565_1_alg».proof.Defs
import proofs.«138791_j17446157156565_1_alg».proof.Proof.Gen.Pre_finite_inputs
import proofs.«138791_j17446157156565_1_alg».proof.Proof.MoeSpec
import Idealize.ShloMosaic.Lib.ReduceAll

noncomputable section

namespace Cert.Proof

open Idealize.ShloMosaic Idealize.SL.Sem

/-- The rank-0 shape has exactly one index. -/
instance subsingleton_scalar_idx : Subsingleton Cert.Pre_finite_inputs.S_.Idx := ⟨fun a b => funext fun d => d.elim0⟩

/-- An extended real whose absolute value max y (-y) compares strictly below the f32 pattern of +∞ is a real number. -/
theorem real_of_abs_lt_inf (y : EReal)
    (e : Ideal.cmp .olt (max y (-y)) (Ideal.ofBits .f32 0x7F800000#32) = 1#1) : ∃ r : ℝ, y = (r : EReal) := by
  have ht : Ideal.ofBits .f32 0x7F800000#32 = (⊤ : EReal) := by simp [Ideal.ofBits, Ideal.ieee]
  rw [ht] at e
  induction y using EReal.rec with
  | bot => simp [Ideal.cmp] at e
  | coe r => exact ⟨r, rfl⟩
  | top => simp [Ideal.cmp] at e

/-- all (|x| < +∞) = 1 over every axis of x makes every entry of x a real number. -/
theorem allReal_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (e : Host.reduce IntOp.andi
        (cmpf CmpFPredicate.olt (Host.absf x)
          (broadcastInDim s ![] hb (constant Cert.Pre_finite_inputs.S_ FTy.f32 0x7F800000#32)))
        (constantI Cert.Pre_finite_inputs.S_ 1 1#1) hr hu ValueIdx.ix0 = 1#1) :
    Moe.AllReal x := fun i =>
  real_of_abs_lt_inf (x i) (Host.reduce_andi_all _ _ hr hu ValueIdx.ix0 e i)

theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Moe.AllReal (m ((c.tc : Thread Cert.KernelIdeal.nD Cert.KernelIdeal.τ).loc Cert.KernelIdeal.main_arg1))
    ∧ Moe.AllReal (m ((c.tc : Thread Cert.KernelIdeal.nD Cert.KernelIdeal.τ).loc Cert.KernelIdeal.main_arg2))
    ∧ Moe.AllReal (m ((c.tc : Thread Cert.KernelIdeal.nD Cert.KernelIdeal.τ).loc Cert.KernelIdeal.main_arg3))
    ∧ Moe.AllReal (m ((c.tc : Thread Cert.KernelIdeal.nD Cert.KernelIdeal.τ).loc Cert.KernelIdeal.main_arg4))
    ∧ Moe.AllReal (m ((c.tc : Thread Cert.KernelIdeal.nD Cert.KernelIdeal.τ).loc Cert.KernelIdeal.main_arg5)) := by
  have h0 := congrFun (h c) ValueIdx.ix0
  dsimp only [Cert.Pre_finite_inputs.fn, Cert.Pre_finite_inputs.fn_part1] at h0
  -- the conjunction is ((((p1 ∧ p2) ∧ p3) ∧ p4) ∧ p5), entrywise at the one index
  obtain ⟨h0, h5⟩ := IntOp.andi_eq_one.1 (show IntOp.andi _ _ = 1#1 from h0)
  obtain ⟨h0, h4⟩ := IntOp.andi_eq_one.1 (show IntOp.andi _ _ = 1#1 from h0)
  obtain ⟨h0, h3⟩ := IntOp.andi_eq_one.1 (show IntOp.andi _ _ = 1#1 from h0)
  obtain ⟨h1, h2⟩ := IntOp.andi_eq_one.1 (show IntOp.andi _ _ = 1#1 from h0)
  exact ⟨allReal_of_all _ _ _ _ h1, allReal_of_all _ _ _ _ h2, allReal_of_all _ _ _ _ h3,
    allReal_of_all _ _ _ _ h4, allReal_of_all _ _ _ _ h5⟩

end Cert.Proof

end
-- ==== Proof.RefValueBase.lean ====
/-
  Facts shared by the eight experts' blocks of the reference program: the spelling of SiLU the program uses, and the
  row-major splitting of a flat offset k·C + j into (k, j) for the two matrix shapes that are reshaped.
-/
import proofs.«138791_j17446157156565_1_alg».proof.Proof.MoeSpec
import Idealize.ShloMosaic.Lib.IdealHost

noncomputable section

namespace Cert.ReferenceIdeal.RefValue

open Idealize.ShloMosaic

/-- SiLU as the program spells it, x · (1 / (1 + exp (−x))) with the two ones given as bit patterns, is x · logistic x. -/
theorem silu_spelt (x : Ideal .f32) :
    FloatOps.mulf x (FloatOps.hostDivf (FloatOps.ofBits (F := Ideal) .f32 0x3F800000#32)
      (FloatOps.addf (FloatOps.ofBits (F := Ideal) .f32 0x3F800000#32) (FloatOps.hostUnary .exp (FloatOps.hostNegf x))))
    = x * Ideal.logistic x := by
  simp only [Ideal.ofBits_def, Ideal.ofBits_one_f32, Ideal.mulf_def]
  rfl

/-- Row of the flat offset k·4096 + j in a 2048 × 4096 matrix. -/
theorem row_2048x4096 (k : Fin 2048) (j : Fin 4096) : (k.val * 4096 + j.val) / 4096 % 2048 = k.val := by
  have := k.isLt; have := j.isLt; omega
/-- Column of the flat offset k·4096 + j in a 2048 × 4096 matrix. -/
theorem col_2048x4096 (k : Fin 2048) (j : Fin 4096) : (k.val * 4096 + j.val) % 4096 = j.val := by
  have := k.isLt; have := j.isLt; omega
/-- Row of the flat offset j·2048 + q in a 4096 × 2048 matrix. -/
theorem row_4096x2048 (j : Fin 4096) (q : Fin 2048) : (j.val * 2048 + q.val) / 2048 % 4096 = j.val := by
  have := j.isLt; have := q.isLt; omega
/-- Column of the flat offset j·2048 + q in a 4096 × 2048 matrix. -/
theorem col_4096x2048 (j : Fin 4096) (q : Fin 2048) : (j.val * 2048 + q.val) % 2048 = q.val := by
  have := j.isLt; have := q.isLt; omega

end Cert.ReferenceIdeal.RefValue

end
-- ==== Proof.RefValueExpert0.lean ====
/-
  Expert 0's block of the reference program. The program slices matrix 0 out of each of the three weight stacks, forms
  the two projections of the hidden states (sums over the 2048 hidden columns), applies SiLU to the first and multiplies
  by the second, contracts the 4096 intermediate columns against the down matrix, and scales by the combine weight
  Σ_{k<2} [selected k = 0] · routing weight k. Each lemma reads one of these stages at (batch b, position s, column) and
  identifies it with the specification's term at the flat token row 2048·b + s.
-/
import proofs.«138791_j17446157156565_1_alg».proof.Proof.Gen.ReferenceIdeal.Read
import proofs.«138791_j17446157156565_1_alg».proof.Proof.RefValueBase

noncomputable section

namespace Cert.ReferenceIdeal.RefValue

open Cert.ReferenceIdeal Cert.ReferenceIdeal.Gen Cert.ReferenceIdeal.Read Idealize.ShloMosaic Idealize.ShloMosaic.StableHlo

variable (x0 : (⟨S2x2048x2, .i32⟩ : BufTy).Contents (Elt Ideal)) (x1 : (⟨S2x2048x2048, .f32⟩ : BufTy).Contents (Elt Ideal))
  (x2 : (⟨S2x2048x2, .f32⟩ : BufTy).Contents (Elt Ideal)) (x3 : (⟨S8x2048x4096, .f32⟩ : BufTy).Contents (Elt Ideal))
  (x4 : (⟨S8x4096x2048, .f32⟩ : BufTy).Contents (Elt Ideal)) (x5 : (⟨S8x2048x4096, .f32⟩ : BufTy).Contents (Elt Ideal))

/-- The hidden states projected by the first up matrix of this expert: the sliced and reshaped matrix, read at
    (k, j), is entry (expert, k, j) of the stack. -/
theorem up0 (b : Fin 2) (s : Fin 2048) (j : Fin 4096) :
    val_main_v3 (F := Ideal) x1 x3 (ValueIdx.ix3 b s j)
      = Moe.proj (Moe.rows x1) (Moe.cube x3) (0 : Fin 8) (Moe.rowOf b s) j := by
  have el (k : Fin 2048) : lidx_main_v3 (ValueIdx.ix3 b s j) k = ValueIdx.ix3 b s k :=
    funext fun a => Fin.ext (by match a with | ⟨0, _⟩ => rfl | ⟨1, _⟩ => rfl | ⟨2, _⟩ => rfl)
  have er (k : Fin 2048) :
      idx_main_v1 (idx_main_v2 (ridx_main_v3 (ValueIdx.ix3 b s j) k)) = ValueIdx.ix3 (0 : Fin 8) k j :=
    funext fun a => Fin.ext (by
      match a with
      | ⟨0, _⟩ => rfl
      | ⟨1, _⟩ => exact row_2048x4096 k j
      | ⟨2, _⟩ => exact col_2048x4096 k j)
  rw [val_main_v3_apply]
  simp only [Moe.proj, Moe.rows, Moe.cube, Moe.rowB_rowOf, Moe.rowS_rowOf]
  refine Finset.sum_congr rfl fun k _ => ?_
  rw [val_main_v2_apply, val_main_v1_apply, el, er]

/-- The hidden states projected by the second up matrix of this expert. -/
theorem side0 (b : Fin 2) (s : Fin 2048) (j : Fin 4096) :
    val_main_v6 (F := Ideal) x1 x5 (ValueIdx.ix3 b s j)
      = Moe.proj (Moe.rows x1) (Moe.cube x5) (0 : Fin 8) (Moe.rowOf b s) j := by
  have el (k : Fin 2048) : lidx_main_v6 (ValueIdx.ix3 b s j) k = ValueIdx.ix3 b s k :=
    funext fun a => Fin.ext (by match a with | ⟨0, _⟩ => rfl | ⟨1, _⟩ => rfl | ⟨2, _⟩ => rfl)
  have er (k : Fin 2048) :
      idx_main_v4 (idx_main_v5 (ridx_main_v6 (ValueIdx.ix3 b s j) k)) = ValueIdx.ix3 (0 : Fin 8) k j :=
    funext fun a => Fin.ext (by
      match a with
      | ⟨0, _⟩ => rfl
      | ⟨1, _⟩ => exact row_2048x4096 k j
      | ⟨2, _⟩ => exact col_2048x4096 k j)
  rw [val_main_v6_apply]
  simp only [Moe.proj, Moe.rows, Moe.cube, Moe.rowB_rowOf, Moe.rowS_rowOf]
  refine Finset.sum_congr rfl fun k _ => ?_
  rw [val_main_v5_apply, val_main_v4_apply, el, er]

/-- SiLU of the first projection times the second. -/
theorem act0 (b : Fin 2) (s : Fin 2048) (j : Fin 4096) :
    val_main_v8 (F := Ideal) x1 x3 x5 (ValueIdx.ix3 b s j)
      = Moe.act (Moe.rows x1) (Moe.cube x3) (Moe.cube x5) (0 : Fin 8) (Moe.rowOf b s) j := by
  rw [val_main_v8_apply, val_main_v7_apply, val_main_call0_v5_apply, val_main_call0_v4_apply,
    val_main_call0_cst_0_apply, val_main_call0_v3_apply, val_main_call0_v2_apply, val_main_call0_cst_apply,
    val_main_call0_v1_apply, val_main_call0_v0_apply, up0, side0, silu_spelt]
  rfl

/-- The activations contracted against the down matrix of this expert. -/
theorem out0 (b : Fin 2) (s : Fin 2048) (q : Fin 2048) :
    val_main_v11 (F := Ideal) x1 x3 x4 x5 (ValueIdx.ix3 b s q)
      = Moe.expertOut (Moe.rows x1) (Moe.cube x3) (Moe.cube x4) (Moe.cube x5) (0 : Fin 8) (Moe.rowOf b s) q := by
  have el (j : Fin 4096) : lidx_main_v11 (ValueIdx.ix3 b s q) j = ValueIdx.ix3 b s j :=
    funext fun a => Fin.ext (by match a with | ⟨0, _⟩ => rfl | ⟨1, _⟩ => rfl | ⟨2, _⟩ => rfl)
  have er (j : Fin 4096) :
      idx_main_v9 (idx_main_v10 (ridx_main_v11 (ValueIdx.ix3 b s q) j)) = ValueIdx.ix3 (0 : Fin 8) j q :=
    funext fun a => Fin.ext (by
      match a with
      | ⟨0, _⟩ => rfl
      | ⟨1, _⟩ => exact row_4096x2048 j q
      | ⟨2, _⟩ => exact col_4096x2048 j q)
  rw [val_main_v11_apply]
  unfold Moe.expertOut
  refine Finset.sum_congr rfl fun j _ => ?_
  rw [val_main_v10_apply, val_main_v9_apply, el, er, act0]
  rfl

/-- The combine weight: the reduction starts from the zero pattern and adds, over the two selections, the 0/1 word of
    "selection = this expert's id" as a number times the routing weight. -/
theorem weight0 (b : Fin 2) (s : Fin 2048) (q : Fin 2048) :
    val_main_v18 (F := Ideal) x0 x2 (ValueIdx.ix3 b s q)
      = Moe.gate (Moe.rows x0) (Moe.rows x2) (BitVec.ofNat 32 (0 : Fin 8).val) (Moe.rowOf b s) := by
  have ei (k : Fin 2) :
      idx_main_v16 (idx_main_v17 (idx_main_v18 (ValueIdx.ix3 b s q))) k = ValueIdx.ix3 b s k :=
    funext fun a => Fin.ext (by match a with | ⟨0, _⟩ => rfl | ⟨1, _⟩ => rfl | ⟨2, _⟩ => rfl)
  rw [val_main_v18_apply, val_main_v17_apply, val_main_v16_apply, val_main_cst_0_apply, Ideal.ofBits_def,
    Ideal.ofBits_zero_f32, zero_add]
  simp only [Moe.gate, Moe.rows, Moe.rowB_rowOf, Moe.rowS_rowOf]
  refine Finset.sum_congr rfl fun k _ => ?_
  rw [val_main_v15_apply, val_main_v14_apply, val_main_v13_apply, val_main_v12_apply, val_main_c_apply, ei]
  rfl

/-- This expert's weighted output. -/
theorem term0 (b : Fin 2) (s : Fin 2048) (q : Fin 2048) :
    val_main_v19 (F := Ideal) x0 x1 x2 x3 x4 x5 (ValueIdx.ix3 b s q)
      = Moe.gate (Moe.rows x0) (Moe.rows x2) (BitVec.ofNat 32 (0 : Fin 8).val) (Moe.rowOf b s)
        * Moe.expertOut (Moe.rows x1) (Moe.cube x3) (Moe.cube x4) (Moe.cube x5) (0 : Fin 8) (Moe.rowOf b s) q := by
  rw [val_main_v19_apply, weight0, out0]
  rfl

end Cert.ReferenceIdeal.RefValue

end
-- ==== Proof.RefValue.lean ====
/-
  The reference program's result is the dense form of the specification. The running total starts as a broadcast zero
  and receives the eight experts' weighted outputs in order, ((((((((0 + t₀) + t₁) + t₂) + t₃) + t₄) + t₅) + t₆) + t₇);
  dropping the zero, this is the eight-term sum over experts written out left to right.
-/
import proofs.«138791_j17446157156565_1_alg».proof.Proof.RefValueExpert0
import proofs.«138791_j17446157156565_1_alg».proof.Proof.RefValueExpert1
import proofs.«138791_j17446157156565_1_alg».proof.Proof.RefValueExpert2
import proofs.«138791_j17446157156565_1_alg».proof.Proof.RefValueExpert3
import proofs.«138791_j17446157156565_1_alg».proof.Proof.RefValueExpert4
import proofs.«138791_j17446157156565_1_alg».proof.Proof.RefValueExpert5
import proofs.«138791_j17446157156565_1_alg».proof.Proof.RefValueExpert6
import proofs.«138791_j17446157156565_1_alg».proof.Proof.RefValueExpert7

noncomputable section

namespace Cert.ReferenceIdeal.RefValue

open Cert.ReferenceIdeal Cert.ReferenceIdeal.Gen Cert.ReferenceIdeal.Read Idealize.ShloMosaic Idealize.ShloMosaic.StableHlo

/-- The value the reference program writes, as a function of its six arguments, is the specification's result. -/
theorem val_eq_result (x0 : (⟨Cert.ReferenceIdeal.S2x2048x2, .i32⟩ : BufTy).Contents (Elt Ideal)) (x1 : (⟨Cert.ReferenceIdeal.S2x2048x2048, .f32⟩ : BufTy).Contents (Elt Ideal))
    (x2 : (⟨Cert.ReferenceIdeal.S2x2048x2, .f32⟩ : BufTy).Contents (Elt Ideal)) (x3 : (⟨Cert.ReferenceIdeal.S8x2048x4096, .f32⟩ : BufTy).Contents (Elt Ideal))
    (x4 : (⟨Cert.ReferenceIdeal.S8x4096x2048, .f32⟩ : BufTy).Contents (Elt Ideal)) (x5 : (⟨Cert.ReferenceIdeal.S8x2048x4096, .f32⟩ : BufTy).Contents (Elt Ideal)) :
    Cert.ReferenceIdeal.Read.val_main_v160 (F := Ideal) x0 x1 x2 x3 x4 x5 = Moe.result x0 x1 x2 x3 x4 x5 := by
  funext i
  obtain ⟨b, s, q, rfl⟩ : ∃ (b : Fin 2) (s : Fin 2048) (q : Fin 2048), i = ValueIdx.ix3 b s q :=
    ⟨i 0, i 1, i 2, ValueIdx.eq_ix3 i⟩
  rw [val_main_v160_apply, val_main_v140_apply, val_main_v120_apply, val_main_v100_apply, val_main_v80_apply,
    val_main_v60_apply, val_main_v40_apply, val_main_v20_apply, val_main_v0_apply, val_main_cst_apply,
    term0, term1, term2, term3, term4, term5, term6, term7, Ideal.ofBits_def, Ideal.ofBits_zero_f32]
  show _ = Moe.G (Moe.rows x0) (Moe.rows x1) (Moe.rows x2) (Moe.cube x3) (Moe.cube x4) (Moe.cube x5) (Moe.rowOf b s) q
  unfold Moe.G
  rw [Fin.sum_univ_eight]
  simp only [Ideal.addf_def, zero_add]

end Cert.ReferenceIdeal.RefValue

end
-- ==== Proof.KernelPieces.lean ====
/-
  What one grid point leaves in the output block's staging buffer, as a value.

  The body of the kernel, at a point that is not the first of its (expert, chunk) sweep, loads the running block `acc`,
  the weight column, the token block and the three weight blocks, and stores `acc + weight · partial` over the whole
  block: one covering store, so the buffer ends holding exactly that payload. At the first point of a sweep it first
  stores the zero block and reads it back, so the buffer ends holding the same payload with `acc` the zero block.
-/
import proofs.«138791_j17446157156565_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RegionValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point inside a sweep: the buffer holding `xo` ends at the accumulate payload over `xo`. -/
theorem out_B (c : Dev nD) (i : grid0.Coords) (a3 : Memref sig .tc .vmem S1x512x1 .f32) (h3 : a3.IsWhole) (a4 : Memref sig .tc .vmem S512x2048 .f32) (h4 : a4.IsWhole) (a5 : Memref sig .tc .vmem S1x2048x512 .bf16) (h5 : a5.IsWhole) (a6 : Memref sig .tc .vmem S1x2048x512 .bf16) (h6 : a6.IsWhole) (a7 : Memref sig .tc .vmem S1x512x2048 .bf16) (h7 : a7.IsWhole) (a8 : Memref sig .tc .vmem S512x2048 .f32) (h8 : a8.IsWhole) (hc : ¬cond0_0 i)
    (x0 : Vec F S1x512x1 .f32) (x1 : Vec F S512x2048 .f32) (x2 : Vec F S1x2048x512 .bf16) (x3 : Vec F S1x2048x512 .bf16) (x4 : Vec F S1x512x2048 .bf16) (xo : Vec F S512x2048 .f32) :
    out0_B_5 c i a3 h3 a4 h4 a5 h5 a6 h6 a7 h7 a8 h8 hc x0 x1 x2 x3 x4 xo = k0_pay2 x1 x2 x3 x4 x0 xo := by
  unfold out0_B_5
  rw [View.read_writes_eq_canon _ _ _ (cover0_B_5 c i a3 h3 a4 h4 a5 h5 a6 h6 a7 h7 a8 h8 hc x0 x1 x2 x3 x4 xo)]
  unfold kernelRun0_B
  dsimp only
  sl_unfold_words
  rw [View.canon_unit_zero hz2]
  simp only [View.readAt_eq_ld, h3.read_unread, h4.read_unread, h5.read_unread, h6.read_unread, h7.read_unread, h8.read_unread,
    View.ld_unit_zero (S := S512x2048) hz2, View.ld_unit_zero (S := S1x2048x512) hz3, View.ld_unit_zero (S := S1x512x2048) hz3,
    View.ld_unit_zero (S := S1x512x1) hz3]

/-- The first point of a sweep: the zero block is stored and read back, so the payload accumulates over zero. -/
theorem out_A (c : Dev nD) (i : grid0.Coords) (a3 : Memref sig .tc .vmem S1x512x1 .f32) (h3 : a3.IsWhole) (a4 : Memref sig .tc .vmem S512x2048 .f32) (h4 : a4.IsWhole) (a5 : Memref sig .tc .vmem S1x2048x512 .bf16) (h5 : a5.IsWhole) (a6 : Memref sig .tc .vmem S1x2048x512 .bf16) (h6 : a6.IsWhole) (a7 : Memref sig .tc .vmem S1x512x2048 .bf16) (h7 : a7.IsWhole) (a8 : Memref sig .tc .vmem S512x2048 .f32) (h8 : a8.IsWhole) (hc : cond0_0 i)
    (x0 : Vec F S1x512x1 .f32) (x1 : Vec F S512x2048 .f32) (x2 : Vec F S1x2048x512 .bf16) (x3 : Vec F S1x2048x512 .bf16) (x4 : Vec F S1x512x2048 .bf16) :
    out0_A_5 c i a3 h3 a4 h4 a5 h5 a6 h6 a7 h7 a8 h8 hc x0 x1 x2 x3 x4 = k0_pay2 x1 x2 x3 x4 x0 (k0_pay1 (F := F)) := by
  unfold out0_A_5
  rw [View.read_writes_eq_canon _ _ _ (cover0_A_5 c i a3 h3 a4 h4 a5 h5 a6 h6 a7 h7 a8 h8 hc x0 x1 x2 x3 x4)]
  unfold kernelRun0_A
  dsimp only
  sl_unfold_words
  rw [View.canon_cons_unit_zero (S := S512x2048) hz2, View.readCov_unit_zero (S := S512x2048) _ hz2]
  simp only [View.readAt_eq_ld, h3.read_unread, h4.read_unread, h5.read_unread, h6.read_unread, h7.read_unread,
    View.ld_unit_zero (S := S512x2048) hz2, View.ld_unit_zero (S := S1x2048x512) hz3, View.ld_unit_zero (S := S1x512x2048) hz3,
    View.ld_unit_zero (S := S1x512x1) hz3]

end Cert.KernelIdeal.RegionValue

end
-- ==== Proof.KernelPayload.lean ====
/-
  The accumulate payload read at one entry (p, q) of the 512 × 2048 output block, over the extended reals.

  With x the token block (512 × 2048), W1 and W3 the expert's projection blocks (2048 × 512 intermediate columns of the
  current chunk), W2 the expert's output block (512 × 2048), g the weight column (512) and acc the running block:
    h1 k = Σ_{d<2048} x p d · W1 d k,   h3 k = Σ_{d<2048} x p d · W3 d k,
    payload (p, q) = acc (p, q) + g p · Σ_{k<512} ((h1 k · logistic (h1 k)) · h3 k) · W2 k q.
  Each matrix product into a zero accumulator is the plain sum of products over the contracted axis; a change of float
  format is the identity on the extended reals; the leading unit axis of a block is dropped by a reshape.
-/
import proofs.«138791_j17446157156565_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.ValueIdx

namespace Cert.KernelIdeal.RegionValue

open Cert.KernelIdeal Cert.KernelIdeal.Gen

/-! ## The two matrix products as sums over the contracted axis -/

theorem lhs_proj_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_proj_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhs_proj_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhs_proj_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

theorem lhs_outp_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_outp_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_outp_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_outp_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- Token block times a projection block, into zero: entry (p, k) is Σ_d x p d · W d k. -/
theorem proj_apply (A : FVec Ideal S512x2048 .bf16) (B : FVec Ideal S2048x512 .bf16) (p : Fin 512) (q : Fin 512) :
    matmul dot_S512x2048_S2048x512_S512x512_1_0_0_1_n_n none A B (constant S512x512 .f32 0x00000000#32) (ix2 p q) = ∑ k : Fin 2048, A (ix2 p k) * B (ix2 k q) := by
  simp only [matmul]
  rw [Ideal.matmul_constant_zero_apply, ← Equiv.sum_comp (ValueIdx.contrEquiv1 dot_S512x2048_S2048x512_S512x512_1_0_0_1_n_n 2048 rfl rfl).symm]
  refine Finset.sum_congr rfl fun k _ => ?_
  have hk := ValueIdx.contrEquiv1_symm_val dot_S512x2048_S2048x512_S512x512_1_0_0_1_n_n 2048 rfl rfl k
  have el : dot_S512x2048_S2048x512_S512x512_1_0_0_1_n_n.lhsIdx (ix2 p q) ((ValueIdx.contrEquiv1 dot_S512x2048_S2048x512_S512x512_1_0_0_1_n_n 2048 rfl rfl).symm k) = ix2 p k := funext fun a => Fin.ext (by
    match a with
    | ⟨0, _⟩ => exact lhs_proj_0 _ _
    | ⟨1, _⟩ => exact (lhs_proj_1 _ _).trans hk)
  have er : dot_S512x2048_S2048x512_S512x512_1_0_0_1_n_n.rhsIdx (ix2 p q) ((ValueIdx.contrEquiv1 dot_S512x2048_S2048x512_S512x512_1_0_0_1_n_n 2048 rfl rfl).symm k) = ix2 k q := funext fun a => Fin.ext (by
    match a with
    | ⟨0, _⟩ => exact (rhs_proj_0 _ _).trans hk
    | ⟨1, _⟩ => exact rhs_proj_1 _ _)
  rw [el, er]

/-- Activation block times the output block, into zero: entry (p, q) is Σ_k a p k · W2 k q. -/
theorem outp_apply (A : FVec Ideal S512x512 .bf16) (B : FVec Ideal S512x2048 .bf16) (p : Fin 512) (q : Fin 2048) :
    matmul dot_S512x512_S512x2048_S512x2048_1_0_0_1_n_n none A B (constant S512x2048 .f32 0x00000000#32) (ix2 p q) = ∑ k : Fin 512, A (ix2 p k) * B (ix2 k q) := by
  simp only [matmul]
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx (ix2 p q) ((ValueIdx.contrEquiv1 dot_S512x512_S512x2048_S512x2048_1_0_0_1_n_n 512 rfl rfl).symm k) = ix2 p k := funext fun a => Fin.ext (by
    match a with
    | ⟨0, _⟩ => exact lhs_outp_0 _ _
    | ⟨1, _⟩ => exact (lhs_outp_1 _ _).trans hk)
  have er : dot_S512x512_S512x2048_S512x2048_1_0_0_1_n_n.rhsIdx (ix2 p q) ((ValueIdx.contrEquiv1 dot_S512x512_S512x2048_S512x2048_1_0_0_1_n_n 512 rfl rfl).symm k) = ix2 k q := funext fun a => Fin.ext (by
    match a with
    | ⟨0, _⟩ => exact (rhs_outp_0 _ _).trans hk
    | ⟨1, _⟩ => exact rhs_outp_1 _ _)
  rw [el, er]

/-! ## The payload at an entry -/

/-- The logistic of a block, entry by entry. -/
theorem logistic_apply {s : Shape} {φ : FTy} (a : FVec Ideal s φ) (i : s.Idx) : logistic a i = Ideal.logistic (a i) := rfl

/-- The weight column broadcast along the 2048 output columns reads the column's entry of the row. -/
theorem bcast_col_apply (g : FVec Ideal S512x1 .f32) (p : Fin 512) (q : Fin 2048) :
    broadcastTo S512x2048 g broadcasts_S512x1_S512x2048 (ix2 p q) = g (ix2 p (0 : Fin 1)) :=
  broadcastTo_apply g _ _ _ (fun a => by
    match a with
    | ⟨0, _⟩ => rfl
    | ⟨1, _⟩ => rfl)

theorem pay_apply (v5 : Vec Ideal S512x2048 .f32) (v8 : Vec Ideal S1x2048x512 .bf16) (v10 : Vec Ideal S1x2048x512 .bf16)
    (v12 : Vec Ideal S1x512x2048 .bf16) (v21 : Vec Ideal S1x512x1 .f32) (v24 : Vec Ideal S512x2048 .f32) (p : Fin 512) (q : Fin 2048) :
    k0_pay2 (F := Ideal) v5 v8 v10 v12 v21 v24 (ix2 p q)
      = v24 (ix2 p q) + v21 (ix3 (0 : Fin 1) p (0 : Fin 1)) * ∑ k : Fin 512,
          (((∑ d : Fin 2048, v5 (ix2 p d) * v8 (ix3 (0 : Fin 1) d k)) * Ideal.logistic (∑ d : Fin 2048, v5 (ix2 p d) * v8 (ix3 (0 : Fin 1) d k)))
            * (∑ d : Fin 2048, v5 (ix2 p d) * v10 (ix3 (0 : Fin 1) d k))) * v12 (ix3 (0 : Fin 1) k q) := by
  unfold k0_pay2
  rw [addf_apply, mulf_apply, shapeCast_self, bcast_col_apply, shapeCast_1ab_ab_apply, shapeCast_self, outp_apply]
  refine congrArg (fun z => v24 (ix2 p q) + v21 (ix3 (0 : Fin 1) p (0 : Fin 1)) * z) (Finset.sum_congr rfl fun k _ => ?_)
  rw [truncf_apply, mulf_apply, mulf_apply, logistic_apply, proj_apply, proj_apply, shapeCast_1ab_ab_apply]
  refine congrArg (fun z => z * v12 (ix3 (0 : Fin 1) k q)) ?_
  simp only [truncf_apply, shapeCast_self, shapeCast_1ab_ab_apply]

end Cert.KernelIdeal.RegionValue

end
-- ==== Proof.KernelRegion.lean ====
/-
  The kernel's one region, read as a value over the extended reals: what the output array holds after the 512 grid points.

  Point t is (token tile t / 64, expert (t / 8) % 8, intermediate chunk t % 8). Its token block is rows
  512·(t/64) … of the hidden states; its weight column the same rows of the expert's combine weights; its projection blocks
  the expert's columns 512·(t%8) … of W1 and W3; its output block the expert's rows 512·(t%8) … of W2. The output block is
  the token tile's rows, kept across the 64 points of a tile, zeroed at the first, written back after the last.

  So after point n the staging buffer holds, at (p, q), the sum over the steps r ≤ n % 64 of the tile of
  weight(expert r) · chunk(expert r, chunk r) at row 512·(n/64) + p and column q (by induction on the point), and the
  array ends holding the 64-step sum at every (row, column): each tile's last point covers its rows.

  The arrays the region finds are taken through five abstract coordinate functions (combine weights, hidden states, the
  three weight stacks) and the hypotheses that the region-entry contents are those; the assembly supplies them.
-/
import proofs.«138791_j17446157156565_1_alg».proof.Proof.KernelPieces
import proofs.«138791_j17446157156565_1_alg».proof.Proof.KernelPayload
import proofs.«138791_j17446157156565_1_alg».proof.Proof.MoeSpec
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (m : (ℓ : Loc nD τ sig) → Buf (Elt Ideal) ℓ)

/-- The printed index maps in closed form, decided once over the 512 points. -/
theorem idx_facts : ∀ t : Fin cfg0.N,
    win0_0.index t (0 : Fin 3) = (t.val / 8) % 8 ∧ win0_0.index t (1 : Fin 3) = t.val / 64 ∧ win0_0.index t (2 : Fin 3) = 0
    ∧ win0_1.index t (0 : Fin 2) = t.val / 64 ∧ win0_1.index t (1 : Fin 2) = 0
    ∧ win0_2.index t (0 : Fin 3) = (t.val / 8) % 8 ∧ win0_2.index t (1 : Fin 3) = 0 ∧ win0_2.index t (2 : Fin 3) = t.val % 8
    ∧ win0_3.index t (0 : Fin 3) = (t.val / 8) % 8 ∧ win0_3.index t (1 : Fin 3) = 0 ∧ win0_3.index t (2 : Fin 3) = t.val % 8
    ∧ win0_4.index t (0 : Fin 3) = (t.val / 8) % 8 ∧ win0_4.index t (1 : Fin 3) = t.val % 8 ∧ win0_4.index t (2 : Fin 3) = 0
    ∧ win0_5.index t (0 : Fin 2) = t.val / 64 ∧ win0_5.index t (1 : Fin 2) = 0 :=
  (by decide +kernel : ∀ t : Fin grid0.N, _)

/-- Row p of the token tile of point n, as a flat token row. -/
def tileRow (n : ℕ) (p : Fin 512) : Fin 4096 := ⟨512 * ((n / 64) % 8) + p.val, by have := p.isLt; omega⟩

/-- The blocks of a point, at their literal types. -/
abbrev gblk (c : Dev nD) (t : Fin cfg0.N) : Vec Ideal S1x512x1 .f32 := iblk m c 0 t
abbrev xblk (c : Dev nD) (t : Fin cfg0.N) : Vec Ideal S512x2048 .f32 := iblk m c 1 t
abbrev w1blk (c : Dev nD) (t : Fin cfg0.N) : Vec Ideal S1x2048x512 .bf16 := iblk m c 2 t
abbrev w3blk (c : Dev nD) (t : Fin cfg0.N) : Vec Ideal S1x2048x512 .bf16 := iblk m c 3 t
abbrev w2blk (c : Dev nD) (t : Fin cfg0.N) : Vec Ideal S1x512x2048 .bf16 := iblk m c 4 t

/-! ## Each block read where its index map says -/

theorem gblk_apply (c : Dev nD) (t : Fin cfg0.N) (p : Fin 512) :
    gblk m c t (ix3 (0 : Fin 1) p (0 : Fin 1))
      = (V m c main_v13 : S8x4096x1.Idx → EReal) (ix3 (Moe.stepE (t.val % 64)) (tileRow t.val p) (0 : Fin 1)) := by
  have hN : t.val < 512 := lt_of_lt_of_eq t.isLt (show cfg0.N = 512 from N_0)
  obtain ⟨e0, e1, e2, -⟩ := idx_facts t
  unfold gblk iblk
  rw [View.read_apply]
  show V m c main_v13 _ = V m c main_v13 _
  congr 1
  funext a
  apply Fin.ext
  match a with
  | ⟨0, _⟩ => show win0_0.index t (0 : Fin 3) * 1 + 1 * 0 = ((t.val % 64) / 8) % 8; rw [e0]; omega
  | ⟨1, _⟩ => show win0_0.index t (1 : Fin 3) * 512 + 1 * p.val = 512 * ((t.val / 64) % 8) + p.val; rw [e1]; omega
  | ⟨2, _⟩ => show win0_0.index t (2 : Fin 3) * 1 + 1 * 0 = 0; rw [e2]

theorem xblk_apply (c : Dev nD) (t : Fin cfg0.N) (p : Fin 512) (d : Fin 2048) :
    xblk m c t (ix2 p d) = (V m c main_v14 : S4096x2048.Idx → EReal) (ix2 (tileRow t.val p) d) := by
  have hN : t.val < 512 := lt_of_lt_of_eq t.isLt (show cfg0.N = 512 from N_0)
  obtain ⟨-, -, -, e0, e1, -⟩ := idx_facts t
  unfold xblk iblk
  rw [View.read_apply]
  show V m c main_v14 _ = V m c main_v14 _
  congr 1
  funext a
  apply Fin.ext
  match a with
  | ⟨0, _⟩ => show win0_1.index t (0 : Fin 2) * 512 + 1 * p.val = 512 * ((t.val / 64) % 8) + p.val; rw [e0]; omega
  | ⟨1, _⟩ => show win0_1.index t (1 : Fin 2) * 2048 + 1 * d.val = d.val; rw [e1]; omega

theorem w1blk_apply (c : Dev nD) (t : Fin cfg0.N) (d : Fin 2048) (k : Fin 512) :
    w1blk m c t (ix3 (0 : Fin 1) d k)
      = (V m c main_v15 : S8x2048x4096.Idx → EReal) (ix3 (Moe.stepE (t.val % 64)) d (Moe.chunkIdx (Moe.stepF (t.val % 64)) k)) := by
  obtain ⟨-, -, -, -, -, e0, e1, e2, -⟩ := idx_facts t
  unfold w1blk iblk
  rw [View.read_apply]
  show V m c main_v15 _ = V m c main_v15 _
  congr 1
  funext a
  apply Fin.ext
  match a with
  | ⟨0, _⟩ => show win0_2.index t (0 : Fin 3) * 1 + 1 * 0 = ((t.val % 64) / 8) % 8; rw [e0]; omega
  | ⟨1, _⟩ => show win0_2.index t (1 : Fin 3) * 2048 + 1 * d.val = d.val; rw [e1]; omega
  | ⟨2, _⟩ => show win0_2.index t (2 : Fin 3) * 512 + 1 * k.val = 512 * ((t.val % 64) % 8) + k.val; rw [e2]; omega

theorem w3blk_apply (c : Dev nD) (t : Fin cfg0.N) (d : Fin 2048) (k : Fin 512) :
    w3blk m c t (ix3 (0 : Fin 1) d k)
      = (V m c main_v17 : S8x2048x4096.Idx → EReal) (ix3 (Moe.stepE (t.val % 64)) d (Moe.chunkIdx (Moe.stepF (t.val % 64)) k)) := by
  obtain ⟨-, -, -, -, -, -, -, -, e0, e1, e2, -⟩ := idx_facts t
  unfold w3blk iblk
  rw [View.read_apply]
  show V m c main_v17 _ = V m c main_v17 _
  congr 1
  funext a
  apply Fin.ext
  match a with
  | ⟨0, _⟩ => show win0_3.index t (0 : Fin 3) * 1 + 1 * 0 = ((t.val % 64) / 8) % 8; rw [e0]; omega
  | ⟨1, _⟩ => show win0_3.index t (1 : Fin 3) * 2048 + 1 * d.val = d.val; rw [e1]; omega
  | ⟨2, _⟩ => show win0_3.index t (2 : Fin 3) * 512 + 1 * k.val = 512 * ((t.val % 64) % 8) + k.val; rw [e2]; omega

theorem w2blk_apply (c : Dev nD) (t : Fin cfg0.N) (k : Fin 512) (q : Fin 2048) :
    w2blk m c t (ix3 (0 : Fin 1) k q)
      = (V m c main_v16 : S8x4096x2048.Idx → EReal) (ix3 (Moe.stepE (t.val % 64)) (Moe.chunkIdx (Moe.stepF (t.val % 64)) k) q) := by
  obtain ⟨-, -, -, -, -, -, -, -, -, -, -, e0, e1, e2, -⟩ := idx_facts t
  unfold w2blk iblk
  rw [View.read_apply]
  show V m c main_v16 _ = V m c main_v16 _
  congr 1
  funext a
  apply Fin.ext
  match a with
  | ⟨0, _⟩ => show win0_4.index t (0 : Fin 3) * 1 + 1 * 0 = ((t.val % 64) / 8) % 8; rw [e0]; omega
  | ⟨1, _⟩ => show win0_4.index t (1 : Fin 3) * 512 + 1 * k.val = 512 * ((t.val % 64) % 8) + k.val; rw [e1]; omega
  | ⟨2, _⟩ => show win0_4.index t (2 : Fin 3) * 2048 + 1 * q.val = q.val; rw [e2]; omega

/-! ## One point's contribution -/

section
variable (gA : Fin 8 → Fin 4096 → EReal) (xA : Fin 4096 → Fin 2048 → EReal)
  (w1A : Fin 8 → Fin 2048 → Fin 4096 → EReal) (w2A : Fin 8 → Fin 4096 → Fin 2048 → EReal) (w3A : Fin 8 → Fin 2048 → Fin 4096 → EReal)

/-- What step r of a tile adds at flat row n, column q. -/
def term (r : ℕ) (n : Fin 4096) (q : Fin 2048) : EReal :=
  gA (Moe.stepE r) n * Moe.chunk xA w1A w2A w3A (Moe.stepE r) (Moe.stepF r) n q

/-- The region-entry contents are the five coordinate functions. -/
structure Entry (c : Dev nD) : Prop where
  hg : ∀ (e : Fin 8) (n : Fin 4096), (V m c main_v13 : S8x4096x1.Idx → EReal) (ix3 e n (0 : Fin 1)) = gA e n
  hx : ∀ (n : Fin 4096) (d : Fin 2048), (V m c main_v14 : S4096x2048.Idx → EReal) (ix2 n d) = xA n d
  hw1 : ∀ (e : Fin 8) (d : Fin 2048) (j : Fin 4096), (V m c main_v15 : S8x2048x4096.Idx → EReal) (ix3 e d j) = w1A e d j
  hw2 : ∀ (e : Fin 8) (j : Fin 4096) (q : Fin 2048), (V m c main_v16 : S8x4096x2048.Idx → EReal) (ix3 e j q) = w2A e j q
  hw3 : ∀ (e : Fin 8) (d : Fin 2048) (j : Fin 4096), (V m c main_v17 : S8x2048x4096.Idx → EReal) (ix3 e d j) = w3A e d j

/-- The accumulate payload on a point's blocks adds the point's term to the running block. -/
theorem point_term (c : Dev nD) (hE : Entry m gA xA w1A w2A w3A c) (t : Fin cfg0.N) (acc : Vec Ideal S512x2048 .f32)
    (p : Fin 512) (q : Fin 2048) :
    k0_pay2 (F := Ideal) (xblk m c t) (w1blk m c t) (w3blk m c t) (w2blk m c t) (gblk m c t) acc (ix2 p q)
      = acc (ix2 p q) + term gA xA w1A w2A w3A (t.val % 64) (tileRow t.val p) q := by
  refine (pay_apply (xblk m c t) (w1blk m c t) (w3blk m c t) (w2blk m c t) (gblk m c t) acc p q).trans ?_
  simp only [gblk_apply, xblk_apply, w1blk_apply, w3blk_apply, w2blk_apply, hE.hg, hE.hx, hE.hw1, hE.hw2, hE.hw3]
  rfl

/-- The running sum of a tile after point n, at (p, q). -/
def runSum (n : ℕ) (p : Fin 512) (q : Fin 2048) : EReal :=
  ∑ r ∈ Finset.range (n % 64 + 1), term gA xA w1A w2A w3A r (tileRow n p) q

theorem zero_blk_apply (p : Fin 512) (q : Fin 2048) : (k0_pay1 (F := Ideal) : Vec Ideal S512x2048 .f32) (ix2 p q) = 0 := by
  unfold k0_pay1
  exact Ideal.ofBits_zero_f32

/-- What the staging buffer holds after point n is the tile's running sum: by induction on the point. -/
theorem outsAt_eq (c : Dev nD) (hE : Entry m gA xA w1A w2A w3A c) :
    ∀ (n : ℕ) (h : n < cfg0.N) (p : Fin 512) (q : Fin 2048),
      (outsAt0 m c n h : Vec Ideal S512x2048 .f32) (ix2 p q) = runSum gA xA w1A w2A w3A n p q
  | n, h, p, q => by
    by_cases h0 : n % 64 = 0
    · have hA := outsAt0_A m c ⟨n, h⟩ h0
      dsimp only at hA
      rw [hA, out_A]
      refine (point_term m gA xA w1A w2A w3A c hE ⟨n, h⟩ (k0_pay1 (F := Ideal)) p q).trans ?_
      rw [zero_blk_apply, zero_add]
      unfold runSum
      dsimp only
      rw [h0, Finset.sum_range_one]
    · have hB := outsAt0_B m c ⟨n, h⟩ h0
      dsimp only at hB
      rw [hB, out_B]
      refine (point_term m gA xA w1A w2A w3A c hE ⟨n, h⟩ _ p q).trans ?_
      have hn : n - 1 < n := by omega
      rw [outsAt_eq c hE (n - 1) (Nat.lt_of_le_of_lt (Nat.sub_le _ _) h) p q]
      unfold runSum
      dsimp only
      have e1 : n % 64 + 1 = ((n - 1) % 64 + 1) + 1 := by omega
      have e2 : tileRow (n - 1) p = tileRow n p := by
        apply Fin.ext; show 512 * (((n - 1) / 64) % 8) + p.val = 512 * ((n / 64) % 8) + p.val; omega
      have e3 : n % 64 = (n - 1) % 64 + 1 := by omega
      rw [e1, Finset.sum_range_succ _ ((n - 1) % 64 + 1), e2, ← e3]
termination_by n => n

/-! ## The array after the last point -/

/-- The 64-step sum at every (row, column). -/
def finalArr : S4096x2048.Idx → EReal := fun i => ∑ r ∈ Finset.range 64, term gA xA w1A w2A w3A r (i 0) (i 1)

/-- Entry (p, q) of the output block of point t sits at (row p of t's token tile, q) of the array. -/
theorem emb_out (t : Fin cfg0.N) (p : Fin 512) (q : Fin 2048) :
    ((cfg0.win 5).blk t).view.emb (ix2 p q) = (ix2 (tileRow t.val p) q : S4096x2048.Idx) := by
  obtain ⟨-, -, -, -, -, -, -, -, -, -, -, -, -, -, e0, e1⟩ := idx_facts t
  funext a
  apply Fin.ext
  match a with
  | ⟨0, _⟩ => show win0_5.index t (0 : Fin 2) * 512 + 1 * p.val = 512 * ((t.val / 64) % 8) + p.val; rw [e0]; have := t.isLt; have hN : cfg0.N = 512 := N_0; omega
  | ⟨1, _⟩ => show win0_5.index t (1 : Fin 2) * 2048 + 1 * q.val = q.val; rw [e1]; omega

/-- A tile's last point writes back the tile's rows of the 64-step sum. -/
theorem flushed_eq (c : Dev nD) (hE : Entry m gA xA w1A w2A w3A c) (t : Fin cfg0.N) (hf : (cfg0.win 5).flush t = true) :
    (dats m 0 c).flushed 5 t = ((cfg0.win 5).blk t).view.read (Elt Ideal) (finalArr gA xA w1A w2A w3A) := by
  have h63 : t.val % 64 = 63 := (flush0_5 t).mp hf
  show (cfg0.win 5).cut (grid0.coords t) ((dats m 0 c).after 5 t) = _
  rw [after0_5]
  funext j
  obtain ⟨p, q, rfl⟩ : ∃ (p : Fin 512) (q : Fin 2048), j = ix2 p q := ⟨j 0, j 1, eq_ix2 j⟩
  show (outsAt0 m c t.val t.isLt : Vec Ideal S512x2048 .f32) (ix2 p q)
    = finalArr gA xA w1A w2A w3A (((cfg0.win 5).blk t).view.emb (ix2 p q))
  rw [outsAt_eq m gA xA w1A w2A w3A c hE, emb_out]
  unfold runSum finalArr
  rw [h63]

/-- An index is in point t's output block iff each coordinate is in the block's range. -/
theorem mem_out_blk (t : Fin cfg0.N) (i : S4096x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v18).slice (win0_5.rect t)).set ↔ _
  rw [View.set_slice_whole, Rect.mem_set_unit]
  exact Iff.rfl

/-- The output array after the region: the 64-step sum everywhere (row n is covered by the last point of tile n / 512). -/
theorem final_arr (c : Dev nD) (hE : Entry m gA xA w1A w2A w3A c) :
    (dats m 0 c).arrAt 5 cfg0.N = finalArr gA xA w1A w2A w3A :=
  (dats m 0 c).arrAt_eq_of_cover 5 (finalArr gA xA w1A w2A w3A) (flushed_eq m gA xA w1A w2A w3A c hE) fun i => by
    have hi0 : ((i : S4096x2048.Idx) 0).val < 4096 := ((i : S4096x2048.Idx) 0).isLt
    have hi1 : ((i : S4096x2048.Idx) 1).val < 2048 := ((i : S4096x2048.Idx) 1).isLt
    have hN : cfg0.N = 512 := N_0
    have ht : 64 * (((i : S4096x2048.Idx) 0).val / 512) + 63 < cfg0.N := by rw [hN]; omega
    refine ⟨⟨64 * (((i : S4096x2048.Idx) 0).val / 512) + 63, ht⟩, (flush0_5 _).mpr (by show (64 * (((i : S4096x2048.Idx) 0).val / 512) + 63) % 64 = 63; omega), ?_⟩
    rw [mem_out_blk]
    obtain ⟨-, -, -, -, -, -, -, -, -, -, -, -, -, -, e0, e1⟩ := idx_facts ⟨64 * (((i : S4096x2048.Idx) 0).val / 512) + 63, ht⟩
    intro a
    match a with
    | ⟨0, _⟩ =>
      show win0_5.index ⟨64 * (((i : S4096x2048.Idx) 0).val / 512) + 63, ht⟩ (0 : Fin 2) * 512 ≤ ((i : S4096x2048.Idx) 0).val
        ∧ ((i : S4096x2048.Idx) 0).val < win0_5.index ⟨64 * (((i : S4096x2048.Idx) 0).val / 512) + 63, ht⟩ (0 : Fin 2) * 512 + 512
      rw [e0]; dsimp only; omega
    | ⟨1, _⟩ =>
      show win0_5.index ⟨64 * (((i : S4096x2048.Idx) 0).val / 512) + 63, ht⟩ (1 : Fin 2) * 2048 ≤ ((i : S4096x2048.Idx) 1).val
        ∧ ((i : S4096x2048.Idx) 1).val < win0_5.index ⟨64 * (((i : S4096x2048.Idx) 0).val / 512) + 63, ht⟩ (1 : Fin 2) * 2048 + 2048
      rw [e1]; omega

end

end Cert.KernelIdeal.RegionValue

end
-- ==== Proof.KernelHost.lean ====
/-
  The host operations around the one kernel region of the mixture-of-experts program, read at an index, over the
  extended reals.

  Before the region: the hidden states [2, 2048, 2048] are reshaped to [4096, 2048], so flat row n is
  (batch n / 2048, position n % 2048); the three weight stacks are narrowed in float format, which is the identity on
  extended reals; and the combine weights [8, 4096, 1] are, at (e, n, 0), the sum over the two routing slots k of
  [selection (n, k) = e] times routing weight (n, k): selections and routing weights are reshaped to [4096, 2] and
  broadcast over the eight experts, an iota over the experts is broadcast over rows and slots, the two are compared, the
  bit is converted to 0 or 1, multiplied by the routing weight, and the last axis is summed from zero.
  After the region: its [4096, 2048] result is reshaped to [2, 2048, 2048], so entry (b, s, q) is the result at flat row
  2048 * b + s and column q.

  A reshape reads its operand at the index with the same row-major position; each statement below is that fact for one
  pair of shapes, composed with the elementwise and broadcast operations read at an index.
-/
import proofs.«138791_j17446157156565_1_alg».proof.Proof.Gen.KernelIdeal.Frame
import proofs.«138791_j17446157156565_1_alg».proof.Proof.MoeSpec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HostValue

open Cert.KernelIdeal Cert.KernelIdeal.Gen Idealize.ShloMosaic Idealize.ShloMosaic.TcCoe Idealize.SL.Sem

variable (m : (ℓ : Loc nD τ sig) → Buf (Elt Ideal) ℓ)

/-! ## Reshapes between [2, 2048, C] and [4096, C] read at an index -/

/-- A [2, 2048, C] array reshaped to [4096, C], read at flat row n and column k, is the array at
    (n / 2048, n % 2048, k): both indices have row-major position n * C + k. -/
theorem reshape_rows {α : Type} {C : Nat} (a : (⟨3, ![2, 2048, C]⟩ : Shape).Idx → α)
    (h : (⟨3, ![2, 2048, C]⟩ : Shape).ShapeCasts ⟨2, ![4096, C]⟩) (n : Fin 4096) (k : Fin C) :
    shapeCast ⟨2, ![4096, C]⟩ a h (ValueIdx.ix2 n k) = a (ValueIdx.ix3 (Moe.rowB n) (Moe.rowS n) k) := by
  refine shapeCast_apply a h _ _ ?_
  rw [Shape.rowMajor_val_three, Shape.rowMajor_val_two]
  show ((n.val / 2048) * 2048 + n.val % 2048) * C + k.val = n.val * C + k.val
  rw [Nat.div_add_mod' n.val 2048]

/-- A [4096, C] array reshaped to [2, 2048, C], read at (b, s, k), is the array at flat row 2048 * b + s and column k. -/
theorem reshape_unrows {α : Type} {C : Nat} (a : (⟨2, ![4096, C]⟩ : Shape).Idx → α)
    (h : (⟨2, ![4096, C]⟩ : Shape).ShapeCasts ⟨3, ![2, 2048, C]⟩) (i : (⟨3, ![2, 2048, C]⟩ : Shape).Idx) :
    shapeCast ⟨3, ![2, 2048, C]⟩ a h i = a (ValueIdx.ix2 (Moe.rowOf (i 0) (i 1)) (i 2)) := by
  refine shapeCast_apply a h _ _ ?_
  rw [Shape.rowMajor_val_three, Shape.rowMajor_val_two]
  show (2048 * (i 0).val + (i 1).val) * C + (i 2).val = ((i 0).val * 2048 + (i 1).val) * C + (i 2).val
  rw [Nat.mul_comm 2048]

/-! ## The hidden states -/

theorem x_apply (c : Dev nD) (n : Fin 4096) (d : Fin 2048) :
    (V m c main_v14 : S4096x2048.Idx → EReal) (ValueIdx.ix2 n d) = Moe.rows (m ((c.tc : Thread nD τ).loc main_arg1)) n d := by
  have e : (V m c main_v14 : S4096x2048.Idx → EReal)
      = shapeCast S4096x2048 (m ((c.tc : Thread nD τ).loc main_arg1) : S2x2048x2048.Idx → EReal) shapeCasts_S2x2048x2048_S4096x2048 := by
    show StableHlo.after hostOps0 (fun b => m (c, b)) (Proc.devRef .tc main_v14) = _
    after_results
    rfl
  rw [e]
  exact reshape_rows (m ((c.tc : Thread nD τ).loc main_arg1) : S2x2048x2048.Idx → EReal) shapeCasts_S2x2048x2048_S4096x2048 n d

/-! ## The three weight stacks: a narrowing of the float format is the identity on extended reals -/

theorem w1_apply (c : Dev nD) (e : Fin 8) (d : Fin 2048) (j : Fin 4096) :
    (V m c main_v15 : S8x2048x4096.Idx → EReal) (ValueIdx.ix3 e d j) = Moe.cube (m ((c.tc : Thread nD τ).loc main_arg3)) e d j := by
  have h : (V m c main_v15 : S8x2048x4096.Idx → EReal) = (m ((c.tc : Thread nD τ).loc main_arg3) : S8x2048x4096.Idx → EReal) := by
    show StableHlo.after hostOps0 (fun b => m (c, b)) (Proc.devRef .tc main_v15) = _
    after_results
    rfl
  rw [h]
  rfl

theorem w2_apply (c : Dev nD) (e : Fin 8) (j : Fin 4096) (q : Fin 2048) :
    (V m c main_v16 : S8x4096x2048.Idx → EReal) (ValueIdx.ix3 e j q) = Moe.cube (m ((c.tc : Thread nD τ).loc main_arg4)) e j q := by
  have h : (V m c main_v16 : S8x4096x2048.Idx → EReal) = (m ((c.tc : Thread nD τ).loc main_arg4) : S8x4096x2048.Idx → EReal) := by
    show StableHlo.after hostOps0 (fun b => m (c, b)) (Proc.devRef .tc main_v16) = _
    after_results
    rfl
  rw [h]
  rfl

theorem w3_apply (c : Dev nD) (e : Fin 8) (d : Fin 2048) (j : Fin 4096) :
    (V m c main_v17 : S8x2048x4096.Idx → EReal) (ValueIdx.ix3 e d j) = Moe.cube (m ((c.tc : Thread nD τ).loc main_arg5)) e d j := by
  have h : (V m c main_v17 : S8x2048x4096.Idx → EReal) = (m ((c.tc : Thread nD τ).loc main_arg5) : S8x2048x4096.Idx → EReal) := by
    show StableHlo.after hostOps0 (fun b => m (c, b)) (Proc.devRef .tc main_v17) = _
    after_results
    rfl
  rw [h]
  rfl

/-! ## The combine weights -/

/-- A [2, 2048, 2] array reshaped to [4096, 2], given a unit leading axis and broadcast over the eight experts, read at
    (e, n, k), is the array at flat row n and slot k. -/
theorem bcast_rows_apply {α : Type} (a : S2x2048x2.Idx → α) (e : Fin 8) (n : Fin 4096) (k : Fin 2) :
    broadcastInDim S8x4096x2 ![0, 1, 2] bcast_S1x4096x2_S8x4096x2_0_1_2
      (broadcastInDim S1x4096x2 ![1, 2] bcast_S4096x2_S1x4096x2_1_2 (shapeCast S4096x2 a shapeCasts_S2x2048x2_S4096x2))
      (ValueIdx.ix3 e n k) = Moe.rows a n k := by
  refine (broadcastInDim_apply _ _ _ (ValueIdx.ix3 e n k) (ValueIdx.ix3 (0 : Fin 1) n k)
    (fun b => match b with | ⟨0, _⟩ => rfl | ⟨1, _⟩ => rfl | ⟨2, _⟩ => rfl)).trans ?_
  refine (broadcastInDim_apply _ _ _ (ValueIdx.ix3 (0 : Fin 1) n k) (ValueIdx.ix2 n k)
    (fun b => match b with | ⟨0, _⟩ => rfl | ⟨1, _⟩ => rfl)).trans ?_
  exact reshape_rows a _ n k

/-- The iota over the eight experts, given two unit axes and broadcast over rows and slots, read at (e, n, k), is the
    word of e. -/
theorem bcast_iota_apply (e : Fin 8) (n : Fin 4096) (k : Fin 2) :
    broadcastInDim S8x4096x2 ![0, 1, 2] bcast_S8x1x1_S8x4096x2_0_1_2
      (broadcastInDim S8x1x1 ![0] bcast_S8_S8x1x1_0 (iotaInDim S8 32 0)) (ValueIdx.ix3 e n k) = BitVec.ofNat 32 e.val := by
  refine (broadcastInDim_apply _ _ _ (ValueIdx.ix3 e n k) (ValueIdx.ix3 e (0 : Fin 1) (0 : Fin 1))
    (fun b => match b with | ⟨0, _⟩ => rfl | ⟨1, _⟩ => rfl | ⟨2, _⟩ => rfl)).trans ?_
  refine (broadcastInDim_apply _ _ _ (ValueIdx.ix3 e (0 : Fin 1) (0 : Fin 1)) (ValueIdx.ix1 e)
    (fun b => match b with | ⟨0, _⟩ => rfl)).trans ?_
  rfl

/-- The combine weights as the host computes them, over arrays of literal type: the selections and the routing weights
    reshaped to [4096, 2] and broadcast over the eight experts, the iota over experts broadcast over rows and slots,
    compared, converted to 0/1, multiplied and summed over the two slots from zero, then given a unit last axis. -/
def hostGates (a0 : S2x2048x2.Idx → BitVec 32) (a2 : S2x2048x2.Idx → EReal) : S8x4096x1.Idx → EReal :=
  shapeCast S8x4096x1
    (Host.reduceAdd
      (mulf (F := Ideal)
        (uitofp (F := Ideal) .f32 (cmpi .eq
          (broadcastInDim S8x4096x2 ![0, 1, 2] bcast_S1x4096x2_S8x4096x2_0_1_2
            (broadcastInDim S1x4096x2 ![1, 2] bcast_S4096x2_S1x4096x2_1_2 (shapeCast S4096x2 a0 shapeCasts_S2x2048x2_S4096x2)))
          (broadcastInDim S8x4096x2 ![0, 1, 2] bcast_S8x1x1_S8x4096x2_0_1_2
            (broadcastInDim S8x1x1 ![0] bcast_S8_S8x1x1_0 (iotaInDim S8 32 0)))))
        (broadcastInDim S8x4096x2 ![0, 1, 2] bcast_S1x4096x2_S8x4096x2_0_1_2
          (broadcastInDim S1x4096x2 ![1, 2] bcast_S4096x2_S1x4096x2_1_2 (shapeCast S4096x2 a2 shapeCasts_S2x2048x2_S4096x2))))
      (constant (F := Ideal) S_ .f32 0x00000000#32) reducesTo_S8x4096x2_S8x4096_d2 h_S_)
    shapeCasts_S8x4096_S8x4096x1

/-- Read at (e, n, 0) it is the sum over the two slots k of [sel n k = e] * rw n k. -/
theorem hostGates_apply (a0 : S2x2048x2.Idx → BitVec 32) (a2 : S2x2048x2.Idx → EReal) (e : Fin 8) (n : Fin 4096) :
    hostGates a0 a2 (ValueIdx.ix3 e n (0 : Fin 1)) = Moe.gate (Moe.rows a0) (Moe.rows a2) (BitVec.ofNat 32 e.val) n := by
  unfold hostGates
  refine (shapeCast_apply (s := S8x4096) (t := S8x4096x1) _ shapeCasts_S8x4096_S8x4096x1 (ValueIdx.ix3 e n (0 : Fin 1)) (ValueIdx.ix2 e n) (by
    rw [Shape.rowMajor_val_three, Shape.rowMajor_val_two]
    show e.val * 4096 + n.val = (e.val * 4096 + n.val) * 1 + 0
    omega)).trans ?_
  have hr : S8x4096x2.Reduces [2] S8x4096 := by decide
  show Ideal.hostReduceAdd reducesTo_S8x4096x2_S8x4096_d2 _ _ (ValueIdx.ix2 e n) = _
  rw [Ideal.hostReduceAdd_single reducesTo_S8x4096x2_S8x4096_d2 hr]
  rw [ValueIdx.constant_apply, Ideal.ofBits_zero_f32, zero_add]
  unfold Moe.gate
  refine Finset.sum_congr rfl fun (k : Fin 2) _ => ?_
  have hl : hr.lift (ValueIdx.ix2 e n) k = ValueIdx.ix3 e n k := by
    funext a; match a with | ⟨0, _⟩ => rfl | ⟨1, _⟩ => rfl | ⟨2, _⟩ => rfl
  rw [hl]
  refine (ValueIdx.mulf_apply _ _ (ValueIdx.ix3 e n k)).trans ?_
  exact congrArg₂ (· * ·)
    (congrArg₂ (fun x y : BitVec 32 => (((IntOp.cmpi .eq x y).toNat : ℝ) : EReal)) (bcast_rows_apply a0 e n k) (bcast_iota_apply e n k))
    (bcast_rows_apply a2 e n k)

theorem gates_apply (c : Dev nD) (e : Fin 8) (n : Fin 4096) :
    (V m c main_v13 : S8x4096x1.Idx → EReal) (ValueIdx.ix3 e n (0 : Fin 1))
      = Moe.gate (Moe.rows (m ((c.tc : Thread nD τ).loc main_arg0))) (Moe.rows (m ((c.tc : Thread nD τ).loc main_arg2))) (BitVec.ofNat 32 e.val) n := by
  have h : (V m c main_v13 : S8x4096x1.Idx → EReal)
      = hostGates (m ((c.tc : Thread nD τ).loc main_arg0)) (m ((c.tc : Thread nD τ).loc main_arg2)) := by
    show StableHlo.after hostOps0 (fun b => m (c, b)) (Proc.devRef .tc main_v13) = _
    after_results
    rfl
  rw [h]
  exact hostGates_apply _ _ e n

/-! ## The reshape after the region -/

theorem tail_apply (c : Dev nD) (i : S2x2048x2048.Idx) :
    (Pipeline.afterTail₀ cfgs (dats m) 0 (V0 m) [hostOps1] c main_v19 : S2x2048x2048.Idx → EReal) i
      = ((dats m 0 c).arrAt 5 cfg0.N : S4096x2048.Idx → EReal) (ValueIdx.ix2 (Moe.rowOf (i 0) (i 1)) (i 2)) := by
  have hw : Pipeline.withArrays (cfgs 0).spec c (V0 m c) (fun w => (dats m 0 c).arrAt w (cfgs 0).N) (Proc.devRef .tc main_v18)
      = (dats m 0 c).arrAt 5 cfg0.N :=
    Pipeline.withArrays_arr spec0 launch0.win.arr_inj c _ _ 5
  have e : (Pipeline.afterTail₀ cfgs (dats m) 0 (V0 m) [hostOps1] c main_v19 : S2x2048x2048.Idx → EReal)
      = shapeCast S2x2048x2048 ((dats m 0 c).arrAt 5 cfg0.N : S4096x2048.Idx → EReal) shapeCasts_S4096x2048_S2x2048x2048 := by
    unfold Pipeline.afterTail₀
    show StableHlo.after hostOps1 _ (Proc.devRef .tc main_v19) = _
    after_results
    rw [hw]
    rfl
  rw [e]
  exact reshape_unrows _ _ i

end Cert.KernelIdeal.HostValue

end
-- ==== Proof.KernelValue.lean ====
/-
  The idealized kernel program's run, read: its result array ends holding the block's result in the tiled accumulation
  order (`Moe.resultTiled` of the six argument arrays), and the arguments end unchanged.

  The host operations before the region make the combine weights, the flat hidden states and the three weight stacks the
  region finds; the region leaves the 64-step sum at every (flat row, column) of its output array; the one operation after
  it reshapes [4096, 2048] to [2, 2048, 2048], so entry (b, s, q) is the sum at flat row 2048·b + s.
-/
import proofs.«138791_j17446157156565_1_alg».proof.Proof.KernelRegion
import proofs.«138791_j17446157156565_1_alg».proof.Proof.KernelHost

noncomputable section

open Idealize.ShloMosaic Idealize.ShloMosaic.TcCoe Idealize.SL.Sem
open Idealize.ShloMosaic.ValueIdx

namespace Cert.KernelIdeal.KValue

open Cert.KernelIdeal Cert.KernelIdeal.Gen

variable (m : (ℓ : Loc nD τ sig) → Buf (Elt Ideal) ℓ) (ρ : Dev nD → PrngReg)

/-- The combine weights as a function of (expert, flat row): the specification's, of the selections and routing weights. -/
def gatesOf (c : Dev nD) : Fin 8 → Fin 4096 → EReal :=
  fun e n => Moe.gate (Moe.rows (m ((c.tc : Thread nD τ).loc main_arg0))) (Moe.rows (m ((c.tc : Thread nD τ).loc main_arg2))) (BitVec.ofNat 32 e.val) n

/-- What the region finds in its five input arrays. -/
theorem entry (c : Dev nD) :
    RegionValue.Entry m (gatesOf m c) (Moe.rows (m ((c.tc : Thread nD τ).loc main_arg1))) (Moe.cube (m ((c.tc : Thread nD τ).loc main_arg3)))
      (Moe.cube (m ((c.tc : Thread nD τ).loc main_arg4))) (Moe.cube (m ((c.tc : Thread nD τ).loc main_arg5))) c :=
  ⟨HostValue.gates_apply m c, HostValue.x_apply m c, HostValue.w1_apply m c, HostValue.w2_apply m c, HostValue.w3_apply m c⟩

/-- The program's result buffer after the run, as a function of the arguments. -/
theorem result_eq (c : Dev nD) :
    Pipeline.afterTail₀ cfgs (dats m) 0 (V0 m) [hostOps1] c main_v19
      = Moe.resultTiled (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  funext i
  refine (HostValue.tail_apply m c i).trans ?_
  rw [RegionValue.final_arr m _ _ _ _ _ c (entry m c)]
  rfl

/-- The frame run re-posted: the result named, the arguments unchanged. -/
theorem run : θ_run defs (onTc (τ := τ) (main (F := Ideal))) ⟨m, fun _ => 0, ρ⟩ fun r => ∀ c : Dev nD,
      r.2.mem ((c.tc : Thread nD τ).loc main_v19) = Moe.resultTiled (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v19 (Pipeline.mem_restRefs_of main_v19 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.lean ====
/-
  The sparse mixture-of-experts block: a tiled kernel against the dense loop over experts.

  Both programs compute, for token row n (batch n / 2048, position n % 2048) and output column q,
      Σ_{e<8} weight_e(n) · Σ_{j<4096} ((h1 · logistic h1) · h3)(e, n, j) · W2(e, j, q),
  with h1 = x·W1[e], h3 = x·W3[e] and weight_e(n) = Σ_{k<2} [selected(n, k) = e] · routing(n, k).
  The reference adds the eight experts' weighted outputs one after the other. The kernel walks a grid of
  (token tile, expert, chunk of 512 intermediate columns), and at each point adds weight_e · (the chunk's part of the
  expert's output) into the token tile's output block, which it zeroes at the tile's first point: 64 steps per tile.
  Over the extended reals the two agree when every float input is finite: the weight and each chunk's partial sum are then
  real numbers, so the weight distributes over an expert's eight chunk sums, and the chunk sums regroup to the full sum
  over the 4096 intermediate columns. Conversions to a narrower float format are the identity over the extended reals, and
  the logistic function is one function whether it is one operation or spelt 1 / (1 + exp (−·)).

  The three frame claims are the generated frames (the reference's: its generated run with the result dropped); the ideal
  pass rewrote nothing, so the kernel's idealization is the printed text itself.
-/
import proofs.«138791_j17446157156565_1_alg».proof.Defs
import proofs.«138791_j17446157156565_1_alg».proof.Proof.Gen.Kernel
import proofs.«138791_j17446157156565_1_alg».proof.Proof.Gen.Kernel.Skeleton
import proofs.«138791_j17446157156565_1_alg».proof.Proof.Gen.Kernel.Launch
import proofs.«138791_j17446157156565_1_alg».proof.Proof.Gen.Kernel.Points
import proofs.«138791_j17446157156565_1_alg».proof.Proof.Gen.Kernel.Frame
import proofs.«138791_j17446157156565_1_alg».proof.Proof.Gen.KernelIdeal
import proofs.«138791_j17446157156565_1_alg».proof.Proof.Gen.KernelIdeal.Skeleton
import proofs.«138791_j17446157156565_1_alg».proof.Proof.Gen.KernelIdeal.Launch
import proofs.«138791_j17446157156565_1_alg».proof.Proof.Gen.KernelIdeal.Points
import proofs.«138791_j17446157156565_1_alg».proof.Proof.Gen.KernelIdeal.Frame
import proofs.«138791_j17446157156565_1_alg».proof.Proof.Gen.ReferenceIdeal
import proofs.«138791_j17446157156565_1_alg».proof.Proof.Gen.Pre_finite_inputs
import proofs.«138791_j17446157156565_1_alg».proof.Proof.Gen.ReferenceIdeal.Run
import proofs.«138791_j17446157156565_1_alg».proof.Proof.Gen.ReferenceIdeal.Read
import proofs.«138791_j17446157156565_1_alg».proof.Proof.MoeSpec
import proofs.«138791_j17446157156565_1_alg».proof.Proof.MoeLaw
import proofs.«138791_j17446157156565_1_alg».proof.Proof.FiniteArgs
import proofs.«138791_j17446157156565_1_alg».proof.Proof.RefValue
import proofs.«138791_j17446157156565_1_alg».proof.Proof.KernelValue
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and keeps its arguments: its generated run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Run from memories that agree on the six arguments, the kernel ends at the tiled sum and the reference at the dense sum
    of the same arrays; the float arguments being finite, these are one array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Moe.resultTiled (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h1, h2, h3, h4, h5⟩ := args_real m hpre c
  rw [Cert.ReferenceIdeal.Read.val_main_v160_eq, Cert.ReferenceIdeal.RefValue.val_eq_result,
    (hagree c).1, (hagree c).2.1, (hagree c).2.2.1, (hagree c).2.2.2.1, (hagree c).2.2.2.2.1, (hagree c).2.2.2.2.2]
  exact (Moe.resultTiled_eq_result _ _ _ _ _ _ h1 h2 h3 h4 h5).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
